-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S96x64 : Shape := ⟨2, ![96, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg1
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_v73 : IVec S1x800000 32 := (extractStridedSlice S1x800000 ![0, 0] · slices_S2x800000_S1x800000_0_0) main_arg1
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg1 : IVec S2x800000 32) (main_arg13 : FVec F S64 .f32) (main_arg14 : FVec F S64x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x800000 32) (main_arg9 : FVec F S96x64 .f32) (main_arg10 : FVec F S64 .f32) (main_arg11 : FVec F S64x64 .f32) (main_arg12 : FVec F S64 .f32) (main_arg13 : FVec F S64 .f32) (main_arg14 : FVec F S64x1 .f32) (main_arg15 : FVec F S1 .f32) (main_v33 : IVec S_ 1) : IVec S_ 1 :=
  let main_v34 : FVec F S96x64 .f32 := Host.absf main_arg9
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_v48 main_v49 main_v50

def fn_part1 {F : FTy → Type} [FloatOps F] (main_arg1 : IVec S2x800000 32) (main_arg6 : FVec F S64x64 .f32) (main_arg7 : FVec F S64 .f32) (main_arg8 : FVec F S64 .f32) (main_arg9 : FVec F S96x64 .f32) (main_arg10 : FVec F S64 .f32) (main_arg11 : FVec F S64x64 .f32) (main_arg12 : FVec F S64 .f32) (main_arg13 : FVec F S64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000x32 .f32) (main_arg3 : IVec S50000 32) (main_arg4 : FVec F S96x64 .f32) (main_arg5 : FVec F S64 .f32) (main_arg6 : FVec F S64x64 .f32) (main_arg7 : FVec F S64 .f32) (main_arg8 : FVec F S64 .f32) (main_arg9 : FVec F S96x64 .f32) (main_arg10 : FVec F S64 .f32) (main_arg11 : FVec F S64x64 .f32) (main_arg12 : FVec F S64 .f32) (main_arg13 : FVec F S64 .f32) (main_arg14 : FVec F S64x1 .f32) (main_arg15 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S96x64 : Shape := ⟨2, ![96, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S8000x64 : Shape := ⟨2, ![8000, 64]⟩
abbrev S8000x32 : Shape := ⟨2, ![8000, 32]⟩
abbrev S8000x96 : Shape := ⟨2, ![8000, 96]⟩
abbrev S1x64 : Shape := ⟨2, ![1, 64]⟩
abbrev S50000x1 : Shape := ⟨2, ![50000, 1]⟩
abbrev S50x64 : Shape := ⟨2, ![50, 64]⟩
abbrev S50 : Shape := ⟨1, ![50]⟩
abbrev S50x1 : Shape := ⟨2, ![50, 1]⟩

abbrev nBuf : Space → Nat
  | .hbm => 185
  | .vmem => 16
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S50000, .i32⟩
  | 4 => ⟨S96x64, .f32⟩
  | 5 => ⟨S64, .f32⟩
  | 6 => ⟨S64x64, .f32⟩
  | 7 => ⟨S64, .f32⟩
  | 8 => ⟨S64, .f32⟩
  | 9 => ⟨S96x64, .f32⟩
  | 10 => ⟨S64, .f32⟩
  | 11 => ⟨S64x64, .f32⟩
  | 12 => ⟨S64, .f32⟩
  | 13 => ⟨S64, .f32⟩
  | 14 => ⟨S64x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x64, .f32⟩
  | 59 => ⟨S50000x64, .f32⟩
  | 60 => ⟨S50000x64, .f32⟩
  | 61 => ⟨S50000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S50000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S64, .f32⟩
  | 84 => ⟨S64, .f32⟩
  | 85 => ⟨S64, .f32⟩
  | 86 => ⟨S1x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S1, .i32⟩
  | 104 => ⟨S_, .i32⟩
  | 105 => ⟨S800000x1, .i32⟩
  | 106 => ⟨S800000x1, .i1⟩
  | 107 => ⟨S1x1, .i32⟩
  | 108 => ⟨S800000x1, .i32⟩
  | 109 => ⟨S800000x1, .i1⟩
  | 110 => ⟨S800000x1, .i1⟩
  | 111 => ⟨S_, .i1⟩
  | 112 => ⟨S800000, .i1⟩
  | 113 => ⟨S800000x64, .f32⟩
  | 114 => ⟨S800000x64, .i1⟩
  | 115 => ⟨S_, .f32⟩
  | 116 => ⟨S800000x64, .f32⟩
  | 117 => ⟨S800000x64, .f32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S_, .f32⟩
  | 124 => ⟨S50000, .f32⟩
  | 125 => ⟨S50000, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S64, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S50000x64, .f32⟩
  | 12 => ⟨S_, .f32⟩
  | 13 => ⟨S64, .f32⟩
  | 14 => ⟨S_, .f32⟩
  | 15 => ⟨S64, .f32⟩
  | 16 => ⟨S64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S64, .f32⟩
  | 25 => ⟨S64, .f32⟩
  | 26 => ⟨S64, .f32⟩
  | 27 => ⟨S1x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S_, .f32⟩
  | 37 => ⟨S50x64, .f32⟩
  | 38 => ⟨S50000x1, .i32⟩
  | 39 => ⟨S50x64, .f32⟩
  | 40 => ⟨S_, .f32⟩
  | 41 => ⟨S50000, .f32⟩
  | 42 => ⟨S_, .f32⟩
  | 43 => ⟨S50, .f32⟩
  | 44 => ⟨S50000x1, .i32⟩
  | 45 => ⟨S50, .f32⟩
  | 46 => ⟨S_, .f32⟩
  | 47 => ⟨S50, .f32⟩
  | 48 => ⟨S50, .f32⟩
  | 49 => ⟨S50x1, .f32⟩
  | 50 => ⟨S50x64, .f32⟩
  | 51 => ⟨S50x64, .f32⟩
  | 52 => ⟨S50x1, .f32⟩
  | 53 => ⟨S1x1, .f32⟩
  | 54 => ⟨S50x1, .f32⟩
  | 55 => ⟨S50x1, .f32⟩
  | 56 => ⟨S50, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x32, .f32⟩
  | .local _ .vmem, ⟨3, _⟩ => ⟨S8000x32, .f32⟩
  | .local _ .vmem, ⟨4, _⟩ => ⟨S96x64, .f32⟩
  | .local _ .vmem, ⟨5, _⟩ => ⟨S64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x32, .f32⟩
  | .local _ .vmem, ⟨11, _⟩ => ⟨S8000x32, .f32⟩
  | .local _ .vmem, ⟨12, _⟩ => ⟨S96x64, .f32⟩
  | .local _ .vmem, ⟨13, _⟩ => ⟨S64, .f32⟩
  | .local _ .vmem, ⟨14, _⟩ => ⟨S8000x64, .f32⟩
  | .local _ .vmem, ⟨15, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst_0 : Ref sig .tc := ⟨.hbm, 48, rfl⟩
abbrev main_v9 : Ref sig .tc := ⟨.hbm, 49, rfl⟩
abbrev main_cst_1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_cst_4 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_5 : Ref sig .tc := ⟨.hbm, 71, rfl⟩
abbrev main_v27 : Ref sig .tc := ⟨.hbm, 72, rfl⟩
abbrev main_cst_6 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_7 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_call1_cst : Ref sig .tc := ⟨.hbm, 92, rfl⟩
abbrev main_call1_v0 : Ref sig .tc := ⟨.hbm, 93, rfl⟩
abbrev main_v45 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v46 : Ref sig .tc := ⟨.hbm, 117, rfl⟩
abbrev main_v47 : Ref sig .tc := ⟨.hbm, 118, rfl⟩
abbrev main_cst_8 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_9 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_10 : Ref sig .tc := ⟨.hbm, 131, rfl⟩
abbrev main_v58 : Ref sig .tc := ⟨.hbm, 132, rfl⟩
abbrev main_cst_11 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_12 : Ref sig .tc := ⟨.hbm, 140, rfl⟩
abbrev main_v65 : Ref sig .tc := ⟨.hbm, 141, rfl⟩
abbrev main_cst_13 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_14 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_call3_cst : Ref sig .tc := ⟨.hbm, 161, rfl⟩
abbrev main_call3_v0 : Ref sig .tc := ⟨.hbm, 162, rfl⟩
abbrev main_v83 : Ref sig .tc := ⟨.hbm, 163, rfl⟩
abbrev main_cst_15 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_16 : Ref sig .tc := ⟨.hbm, 168, rfl⟩
abbrev main_v87 : Ref sig .tc := ⟨.hbm, 169, rfl⟩
abbrev main_cst_17 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_cst_18 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  concatenates_S8000x64_S8000x32_S8000x96_d1 : Shape.Concatenates [S8000x64, S8000x32] S8000x96 1
  inb_S96x64_S96x64_0_0 : ∀ a, (![0, 0] : Fin 2 → Nat) a + S96x64.size a ≤ S96x64.size a
  h_S96x64 : 0 < S96x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50x64 : S_.BroadcastsInDim S50x64 (![] : Fin 0 → Fin S50x64.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  bcast_S1x1_S50x1_0_1 : S1x1.BroadcastsInDim S50x1 (![0, 1] : Fin 2 → Fin S50x1.rank)
  shapeCasts_S50x1_S50 : S50x1.ShapeCasts S50
  gather_S50000x64_S800000x1_S800000x64_1_0_n_n_0_1_164_wf : GatherDims.WF S50000x64 S800000x1 S800000x64 [1] [0] [] [0] [] 1 ![1, 64]
  dot_S8000x96_S96x64_S8000x64_1_0_0_1_n_n_wf : DotDims.WF S8000x96 S96x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  dot_S50x64_S64x1_S50x1_1_0_0_1_n_n_wf : DotDims.WF S50x64 S64x1 S50x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S800000x32.size a
  hwx0_1 : ∀ i : grid0.Coords, EltTy.bits .f32 = 32 ∨ (Rect.block (s := S800000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S800000x32.size a
  hwx1_1 : ∀ i : grid1.Coords, EltTy.bits .f32 = 32 ∨ (Rect.block (s := S800000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x64.size a ≤ S96x64.size a
  hwx1_2 : ∀ i : grid1.Coords, EltTy.bits .f32 = 32 ∨ (Rect.block (s := S96x64) S96x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S800000x64.size a
  hwx1_4 : ∀ i : grid1.Coords, EltTy.bits .f32 = 32 ∨ (Rect.block (s := S800000x64) S8000x64.size (cc1_transform_4 i) (hinb1_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x96_S96x64_S8000x64_1_0_0_1_n_n : DotDims S8000x96 S96x64 S8000x64 where
  lhsContracting := [1]
  rhsContracting := [0]
  lhsNonContracting := [0]
  rhsNonContracting := [1]
  lhsBatch := []
  rhsBatch := []
  wf := dot_S8000x96_S96x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x64_S64x1_S50x1_1_0_0_1_n_n : DotDims S50x64 S64x1 S50x1 where
  lhsContracting := [1]
  rhsContracting := [0]
  lhsNonContracting := [0]
  rhsNonContracting := [1]
  lhsBatch := []
  rhsBatch := []
  wf := dot_S50x64_S64x1_S50x1_1_0_0_1_n_n_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S96x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S96x64 : Shape := ⟨2, ![96, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S1x64 : Shape := ⟨2, ![1, 64]⟩
abbrev S50000x1 : Shape := ⟨2, ![50000, 1]⟩
abbrev S50x64 : Shape := ⟨2, ![50, 64]⟩
abbrev S50 : Shape := ⟨1, ![50]⟩
abbrev S50x1 : Shape := ⟨2, ![50, 1]⟩
abbrev S1x1 : Shape := ⟨2, ![1, 1]⟩

abbrev nBuf : Space → Nat
  | .hbm => 177
  | .vmem => 0
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S50000, .i32⟩
  | 4 => ⟨S96x64, .f32⟩
  | 5 => ⟨S64, .f32⟩
  | 6 => ⟨S64x64, .f32⟩
  | 7 => ⟨S64, .f32⟩
  | 8 => ⟨S64, .f32⟩
  | 9 => ⟨S96x64, .f32⟩
  | 10 => ⟨S64, .f32⟩
  | 11 => ⟨S64x64, .f32⟩
  | 12 => ⟨S64, .f32⟩
  | 13 => ⟨S64, .f32⟩
  | 14 => ⟨S64x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x96, .f32⟩
  | 30 => ⟨S800000x64, .f32⟩
  | 31 => ⟨S1x64, .f32⟩
  | 32 => ⟨S800000x64, .f32⟩
  | 33 => ⟨S800000x64, .f32⟩
  | 34 => ⟨S_, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x64, .f32⟩
  | 52 => ⟨S50000x64, .f32⟩
  | 53 => ⟨S50000x64, .f32⟩
  | 54 => ⟨S50000x64, .f32⟩
  | 55 => ⟨S_, .f32⟩
  | 56 => ⟨S64, .f32⟩
  | 57 => ⟨S_, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S50000x64, .f32⟩
  | 64 => ⟨S_, .f32⟩
  | 65 => ⟨S64, .f32⟩
  | 66 => ⟨S_, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S64, .f32⟩
  | 77 => ⟨S64, .f32⟩
  | 78 => ⟨S64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x96, .f32⟩
  | 98 => ⟨S800000x64, .f32⟩
  | 99 => ⟨S1x64, .f32⟩
  | 100 => ⟨S800000x64, .f32⟩
  | 101 => ⟨S800000x64, .f32⟩
  | 102 => ⟨S_, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S50000, .f32⟩
  | 117 => ⟨S50000, .f32⟩
  | 118 => ⟨S50000x1, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S64, .f32⟩
  | 125 => ⟨S_, .f32⟩
  | 126 => ⟨S64, .f32⟩
  | 127 => ⟨S64, .f32⟩
  | _ => ⟨S50000x64, .f32⟩

abbrev hbmTy0_1 (i : Nat) : BufTy := match i % 128 with
  | 0 => ⟨S1x64, .f32⟩
  | 1 => ⟨S50000x64, .f32⟩
  | 2 => ⟨S50000x64, .f32⟩
  | 3 => ⟨S50000x64, .f32⟩
  | 4 => ⟨S_, .f32⟩
  | 5 => ⟨S64, .f32⟩
  | 6 => ⟨S_, .f32⟩
  | 7 => ⟨S64, .f32⟩
  | 8 => ⟨S64, .f32⟩
  | 9 => ⟨S1x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S64, .f32⟩
  | 17 => ⟨S64, .f32⟩
  | 18 => ⟨S64, .f32⟩
  | 19 => ⟨S1x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S_, .f32⟩
  | 29 => ⟨S50x64, .f32⟩
  | 30 => ⟨S50000x1, .i32⟩
  | 31 => ⟨S50x64, .f32⟩
  | 32 => ⟨S_, .f32⟩
  | 33 => ⟨S50000, .f32⟩
  | 34 => ⟨S_, .f32⟩
  | 35 => ⟨S50, .f32⟩
  | 36 => ⟨S50000x1, .i32⟩
  | 37 => ⟨S50, .f32⟩
  | 38 => ⟨S_, .f32⟩
  | 39 => ⟨S50, .f32⟩
  | 40 => ⟨S50, .f32⟩
  | 41 => ⟨S50x1, .f32⟩
  | 42 => ⟨S50x64, .f32⟩
  | 43 => ⟨S50x64, .f32⟩
  | 44 => ⟨S50x1, .f32⟩
  | 45 => ⟨S1x1, .f32⟩
  | 46 => ⟨S50x1, .f32⟩
  | 47 => ⟨S50x1, .f32⟩
  | 48 => ⟨S50, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call1_cst : Ref sig .tc := ⟨.hbm, 85, rfl⟩
abbrev main_call1_v0 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call2_cst : Ref sig .tc := ⟨.hbm, 102, rfl⟩
abbrev main_call2_v0 : Ref sig .tc := ⟨.hbm, 103, rfl⟩
abbrev main_v69 : Ref sig .tc := ⟨.hbm, 104, rfl⟩
abbrev main_cst_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_12 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_cst_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_19 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_call3_cst : Ref sig .tc := ⟨.hbm, 153, rfl⟩
abbrev main_call3_v0 : Ref sig .tc := ⟨.hbm, 154, rfl⟩
abbrev main_v109 : Ref sig .tc := ⟨.hbm, 155, rfl⟩
abbrev main_cst_20 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_21 : Ref sig .tc := ⟨.hbm, 160, rfl⟩
abbrev main_v113 : Ref sig .tc := ⟨.hbm, 161, rfl⟩
abbrev main_cst_22 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_23 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S1x64_S50000x64_0_1 : S1x64.BroadcastsInDim S50000x64 (![0, 1] : Fin 2 → Fin S50000x64.rank)
  bcast_S_S50x64 : S_.BroadcastsInDim S50x64 (![] : Fin 0 → Fin S50x64.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  shapeCasts_S50x1_S50 : S50x1.ShapeCasts S50
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  dot_S50x64_S64x1_S50x1_1_0_0_1_n_n_wf : DotDims.WF S50x64 S64x1 S50x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x64_S64x1_S50x1_1_0_0_1_n_n : DotDims S50x64 S64x1 S50x1 where
  lhsContracting := [1]
  rhsContracting := [0]
  lhsNonContracting := [0]
  rhsNonContracting := [1]
  lhsBatch := []
  rhsBatch := []
  wf := dot_S50x64_S64x1_S50x1_1_0_0_1_n_n_wf

class Facts : Prop extends Facts₀ where

variable [Facts]
-- ==== Proof.Reads.lean ====
/-
  READING A BUFFER AT ITS VALUE TYPE. An operation of a called function reads and writes its buffers through the type of
  the tensor value they hold; the transport between a buffer's own type and that value type is the identity, and a
  transport there and back cancels. Also here: the index column a take gathers with (a negative index wrapped by the
  table's 50000 rows, laid out as an 800000 × 1 column).
-/
import proofs.«421166_j4243427688733_1_alg».proof.Proof.Gen.KernelIdeal.Frame
import Idealize.ShloMosaic.Lib.StableHlo.Run
import Idealize.ShloMosaic.PureOps.Ideal

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

/-- A transport there and back is the identity. -/
theorem cast_cancel {α β : Type} (h₁ : β = α) (h₂ : α = β) (v : α) : cast h₁ (cast h₂ v) = v := by
  subst h₂; rfl

/-- The wrapped index column of a take: index s(e) where it is not negative, s(e) + 50000 where it is, as a column. -/
abbrev colK (s : IVec S800000 32) : IVec S800000x1 32 :=
  broadcastInDim S800000x1 ![0] bcast_S800000_S800000x1_0
    (select (cmpi .slt s (broadcastInDim S800000 ![] bcast_S_S800000 (constantI S_ 32 0#32)))
            (addi s (broadcastInDim S800000 ![] bcast_S_S800000 (constantI S_ 32 50000#32))) s)

/-! The transports at the buffers where a called function's operation meets one of @main's own. -/

theorem ofBuf_v1 (v : (⟨S800000, .i32⟩ : BufTy).Contents (Elt Ideal)) :
    (TRef.of (T := ⟨S800000, .i32⟩) main_v1).ofBuf v = v := rfl
theorem ofBuf_arg0 (v : (⟨S50000x64, .f32⟩ : BufTy).Contents (Elt Ideal)) :
    (TRef.of (T := ⟨S50000x64, .f32⟩) main_arg0).ofBuf v = v := rfl
theorem toBuf_v4 (v : (⟨S800000x64, .f32⟩ : BufTy).Contents (Elt Ideal)) :
    (TRef.of (T := ⟨S800000x64, .f32⟩) main_v4).toBuf v = v := rfl
theorem ofBuf_v44 (v : (⟨S50000x64, .f32⟩ : BufTy).Contents (Elt Ideal)) :
    (TRef.of (T := ⟨S50000x64, .f32⟩) main_v44).ofBuf v = v := rfl
theorem toBuf_v45 (v : (⟨S50000x64, .f32⟩ : BufTy).Contents (Elt Ideal)) :
    (TRef.of (T := ⟨S50000x64, .f32⟩) main_v45).toBuf v = v := rfl
theorem ofBuf_v45 (v : (⟨S50000x64, .f32⟩ : BufTy).Contents (Elt Ideal)) :
    (TRef.of (T := ⟨S50000x64, .f32⟩) main_v45).ofBuf v = v := rfl
theorem toBuf_v46 (v : (⟨S800000x64, .f32⟩ : BufTy).Contents (Elt Ideal)) :
    (TRef.of (T := ⟨S800000x64, .f32⟩) main_v46).toBuf v = v := rfl
theorem ofBuf_v82 (v : (⟨S50000x64, .f32⟩ : BufTy).Contents (Elt Ideal)) :
    (TRef.of (T := ⟨S50000x64, .f32⟩) main_v82).ofBuf v = v := rfl
theorem toBuf_v83 (v : (⟨S50000x64, .f32⟩ : BufTy).Contents (Elt Ideal)) :
    (TRef.of (T := ⟨S50000x64, .f32⟩) main_v83).toBuf v = v := rfl

end Cert.KernelIdeal.Reads

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.LibColumnTake.lean ====
/-
  THE TAKE ALONG A TABLE'S SECOND AXIS, and the words of an index that is in range.

  A host `stablehlo.gather` of a [D × N] table whose start indices are an [n × 1] column, the table's second axis
  collapsed and start-indexed and its first axis whole (slice sizes [D, 1]) and read by the result's offset axis 0, reads
  at result element (j, e) the table's element (j, r), r the start index of row `e` read signed and clamped into the table
  (`gather_cols`; the mirror image of the row take `gather_rows`). Around such a gather a `take` wraps a negative index
  by the axis length, tests the wrapped index against [0, length − 1] by an and-reduction over the unit axis of the
  column, and keeps the gathered element where the test holds. For a word that reads signed as a number in range the wrap
  is idle (`wrap_word`), the test holds (`range_word`), the and-reduction over the unit axis of an [n × 1] column of bits
  is 1 at a row whose bit is 1 (`reduce_andi_col1`), and a vector laid along one axis of a rectangle reads its own entry
  (`bcast_along1`, `bcast_along0`).
-/
import proofs.«421166_j4243427688733_1_alg».proof.Proof.LibGatherScatter
import Idealize.ShloMosaic.Lib.StableHlo.Predicate
import Idealize.ShloMosaic.Lib.ValueIdx
import Idealize.ShloMosaic.Lib.Pipeline.Value
import Idealize.ShloMosaic.PureOps.Reduce

open scoped BigOperators

namespace Idealize.ShloMosaic.RowOps

open Idealize.ShloMosaic Idealize.ShloMosaic.ValueIdx Idealize.ShloMosaic.StableHlo.Predicate

/-! ## The take along the second axis -/

/-- Every element of a one-element list is that element. -/
private theorem getElem_singleton_of_eq' {β : Type} {l : List β} {b : β} (h : l = [b]) (k : Nat) (hk : k < l.length) :
    l[k] = b :=
  List.mem_singleton.1 (h ▸ List.getElem_mem hk)

/-- THE COLUMN TAKE. A `stablehlo.gather` of a [D × N] operand whose start indices are an [n × 1] column of column
    numbers: operand axis 1 collapsed and start-indexed, operand axis 0 whole (slice sizes [D, 1]) and read by the
    result's offset axis 0, no batching axes, the index vector on axis 1. Result element (j, e) is the operand's element
    (j, r), r the start index of row `e` read signed and clamped into [0, N − 1]. -/
theorem gather_cols {α : Type} {N D n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1) (hss : d.sliceSizes = ![D, 1])
    (x : (⟨2, ![D, N]⟩ : Shape).Idx → α) (idx : IVec ⟨2, ![n, 1]⟩ w) (j : Fin D) (e : Fin n) (hN : 0 < N) :
    Host.gather d x idx (ix2 j e) = x (ix2 j (clampRow N hN idx e)) := by
  have hb : ∀ a : Fin 2, a ∉ d.operandBatchingDims := fun a => by rw [hob]; exact List.not_mem_nil
  -- the result's batch axes: the one axis that is not the offset axis
  have hbd : d.batchDims = [1] := by
    show Shape.kept _ d.offsetDims = [1]
    rw [hoff]
    show (List.finRange 2).filter (fun a : Fin 2 => a ∉ [(0 : Fin 2)]) = [1]
    decide
  -- axis 1: collapsed and start-indexed, the clamped start alone
  have h1 : (d.operandIdx (ix2 j e) idx (1 : Fin 2)).val = (clampRow N hN idx e).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := by rw [hss]; rfl
    show d.start (ix2 j e) idx 1 + d.batchCoord (ix2 j e) 1 + d.offCoord (ix2 j e) 1 = min (idx (ixP e)).toInt.toNat (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 1 → ((ix2 j e : (⟨2, ![D, n]⟩ : Shape).Idx) X).val = e.val := fun X hX => by subst hX; rfl
      exact he _ (getElem_singleton_of_eq' hbd _ _)
    | ⟨1, _⟩ =>
      unfold GatherDims.siIdx
      rw [dif_pos (by rw [hivd])]
      apply Fin.ext
      show List.idxOf (1 : Fin 2) d.startIndexMap = 0
      rw [hsim]; simp
  -- axis 0: neither start-indexed nor collapsed, the offset coordinate alone
  have h0 : (d.operandIdx (ix2 j e) idx (0 : Fin 2)).val = j.val := by
    have hk : (0 : Fin 2) ∈ d.sKept := by rw [GatherDims.mem_sKept, hcoll, hob]; simp
    have hm : (0 : Fin 2) ∉ d.startIndexMap := by rw [hsim]; simp
    show d.start (ix2 j e) idx 0 + d.batchCoord (ix2 j e) 0 + d.offCoord (ix2 j e) 0 = j.val
    rw [GatherDims.batchCoord_eq_zero _ _ _ (hb 0), Nat.add_zero]
    unfold GatherDims.start GatherDims.offCoord
    rw [dif_neg hm, dif_pos hk, Nat.zero_add]
    have hj : ∀ X : Fin 2, X = 0 → ((ix2 j e : (⟨2, ![D, n]⟩ : Shape).Idx) X).val = j.val := fun X hX => by subst hX; rfl
    exact hj _ (getElem_singleton_of_eq' hoff _ _)
  unfold Host.gather
  congr 1
  funext a
  apply Fin.ext
  match a with
  | ⟨0, _⟩ => exact h0
  | ⟨1, _⟩ => exact h1

/-! ## The words of an index in range -/

/-- A word that reads signed as a non-negative number is not below zero, so the wrap keeps the word itself. -/
theorem wrap_word (N x : BitVec 32) (h0 : 0 ≤ x.toInt) :
    Scalar.select (IntOp.cmpi .slt x 0#32) (IntOp.addi x N) x = x := by
  have hc : IntOp.cmpi .slt x 0#32 = 0#1 := by
    show BitVec.ofBool (x.slt 0#32) = 0#1
    have hs : x.slt 0#32 = false := by
      have hz : (0#32 : BitVec 32).toInt = 0 := by decide
      simp only [BitVec.slt, hz, decide_eq_false_iff_not, not_lt]
      exact h0
    rw [hs]; rfl
  rw [hc]; exact select_zero _ _

/-- A word that reads signed as a number in [0, M] passes both comparisons of the range test. -/
theorem range_word (M x : BitVec 32) (h0 : 0 ≤ x.toInt) (h1 : x.toInt ≤ M.toInt) :
    IntOp.andi (IntOp.cmpi .sge x 0#32) (IntOp.cmpi .sle x M) = 1#1 := by
  have hz : (0#32 : BitVec 32).toInt = 0 := by decide
  have hge : IntOp.cmpi .sge x 0#32 = 1#1 := by
    show BitVec.ofBool ((0#32 : BitVec 32).sle x) = 1#1
    have hs : (0#32 : BitVec 32).sle x = true := by
      simp only [BitVec.sle, hz, decide_eq_true_eq]; exact h0
    rw [hs]; rfl
  have hle : IntOp.cmpi .sle x M = 1#1 := by
    show BitVec.ofBool (x.sle M) = 1#1
    have hs : x.sle M = true := by
      simp only [BitVec.sle, decide_eq_true_eq]; exact h1
    rw [hs]; rfl
  rw [hge, hle]; rfl

/-! ## The and-reduction over the unit axis of a column, and a vector laid along an axis -/

/-- A fold of `and` from 1 over bits that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

/-- The `and`-reduction of an [n × 1] column of bits over its unit axis, from the initial bit 1, is 1 at every row whose
    bit is 1. -/
theorem reduce_andi_col1 {n : Nat} {u : Shape} (x : IVec ⟨2, ![n, 1]⟩ 1) (init : u.Idx → BitVec 1)
    (h : (⟨2, ![n, 1]⟩ : Shape).ReducesTo [1] ⟨1, ![n]⟩) (hu : 0 < u.numel) (hinit : init (Shape.Idx.first hu) = 1#1)
    (e : Fin n) (hx : x (ixP e) = 1#1) :
    Host.reduce IntOp.andi x init h hu (ix1 e) = 1#1 := by
  rw [Host.reduce_eq_fold, hinit]
  refine fold_andi_one _ _ fun i hi => ?_
  have hd : h.drop i = ix1 e := (Finset.mem_filter.1 hi).2
  have hv : (h.drop i 0 : Nat) = i 0 := Shape.ReducesTo.drop_apply_val h i 0
  have h0 : (i 0).val = e.val := by rw [← hv, hd]; rfl
  have hi' : i = ixP e := by
    funext a
    match a with
    | ⟨0, _⟩ => exact Fin.ext h0
    | ⟨1, _⟩ => exact Subsingleton.elim (α := Fin 1) _ _
  rw [hi']; exact hx

/-- A vector laid along the SECOND axis of a [D × n] rectangle (dims [1]) reads, at (j, e), its entry `e`. -/
theorem bcast_along1 {α : Type} {D n : Nat} (hn : n ≠ 1) (h : (⟨1, ![n]⟩ : Shape).BroadcastsInDim ⟨2, ![D, n]⟩ ![1])
    (v : (⟨1, ![n]⟩ : Shape).Idx → α) (j : Fin D) (e : Fin n) :
    broadcastInDim ⟨2, ![D, n]⟩ ![1] h v (ix2 j e) = v (ix1 e) := by
  refine broadcastInDim_apply _ h v (ix2 j e) (ix1 e) fun a => ?_
  match a with
  | ⟨0, _⟩ =>
    show e.val = if n = 1 then 0 else e.val
    rw [if_neg hn]

/-- A vector laid along the FIRST axis of an [n × D] rectangle (dims [0]) reads, at (e, f), its entry `e`. -/
theorem bcast_along0 {α : Type} {D n : Nat} (hn : n ≠ 1) (h : (⟨1, ![n]⟩ : Shape).BroadcastsInDim ⟨2, ![n, D]⟩ ![0])
    (v : (⟨1, ![n]⟩ : Shape).Idx → α) (e : Fin n) (f : Fin D) :
    broadcastInDim ⟨2, ![n, D]⟩ ![0] h v (ix2 e f) = v (ix1 e) := by
  refine broadcastInDim_apply _ h v (ix2 e f) (ix1 e) fun a => ?_
  match a with
  | ⟨0, _⟩ =>
    show e.val = if n = 1 then 0 else e.val
    rw [if_neg hn]

end Idealize.ShloMosaic.RowOps
-- ==== Proof.TakePre.lean ====
/-
  SOURCE INDICES IN RANGE, AND THE TAKE THAT THEN FILLS NOTHING.
  The added precondition says every source index s(e) (row 0 of the 2 × 800000 edge list) satisfies 0 ≤ s(e) < 50000.
  A take of rows in fill mode first wraps a negative index by the table's length, then tests the wrapped index against
  [0, 49999] (an and-reduction over the unit axis of the index column), gathers with the index clamped, and keeps the
  gathered row where the test holds, a fill value elsewhere. For an index in range the wrap is idle and the test holds at
  every row, so the selection is the gathered array itself.
-/
import proofs.«421166_j4243427688733_1_alg».proof.Proof.LibColumnTake
import proofs.«421166_j4243427688733_1_alg».proof.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.Lib.StableHlo.Predicate

noncomputable section

namespace Cert.TakePre

open Idealize.ShloMosaic Idealize.ShloMosaic.ValueIdx Idealize.ShloMosaic.StableHlo.Predicate Idealize.ShloMosaic.RowOps

/-- A vector kept as an [n × 1] column reads, at row `e`, its entry `e`. -/
private theorem col_at {α : Type} {n : Nat} (hn : n ≠ 1) (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ixP e) = v (ix1 e) := by
  refine broadcastInDim_apply _ h v (ixP e) (ix1 e) fun a => ?_
  match a with
  | ⟨0, _⟩ =>
    show e.val = if n = 1 then 0 else e.val
    rw [if_neg hn]

/-- The words of one row: an index word in [0, 50000) is kept by the wrap and passes the range test against 49999. -/
private theorem row_word (x : BitVec 32) (h0 : 0 ≤ x.toInt) (h1 : x.toInt < 50000) :
    IntOp.andi (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  rw [wrap_word 50000#32 x h0]
  refine range_word 49999#32 x h0 ?_
  have hM : (49999#32 : BitVec 32).toInt = 49999 := by decide
  rw [hM]; omega

/-- A broadcast of a constant array is the constant array of the result's shape. -/
private theorem bcast_constI {s t : Shape} {w : Nat} (dims : Fin s.rank → Fin t.rank) (h : s.BroadcastsInDim t dims)
    (b : BitVec w) : broadcastInDim t dims h (constantI s w b) = constantI t w b := rfl

/-- A constant array reads its word everywhere. -/
private theorem constantI_at {s : Shape} {w : Nat} (b : BitVec w) (i : s.Idx) : constantI s w b i = b := rfl

open Cert.Pre_finite_inputs in
/-- The last part of the printed precondition at its one index: it is 1 only if every source index lies in [0, 50000).
    The part is an `and` of the earlier conjuncts with the and-reduction, over all edges, of the two comparisons. -/
private theorem part4_range [Cert.Pre_finite_inputs.Facts] (a1 : IVec S2x800000 32) (X Y : IVec S_ 1)
    (h : fn_part4 (F := Ideal) a1 X Y ix0 = 1#1) (e : Fin 800000) :
    0 ≤ ((shapeCast S800000 (extractStridedSlice S1x800000 ![0, 0] a1 Facts.slices_S2x800000_S1x800000_0_0)
            Facts.shapeCasts_S1x800000_S800000) (ix1 e)).toInt
    ∧ ((shapeCast S800000 (extractStridedSlice S1x800000 ![0, 0] a1 Facts.slices_S2x800000_S1x800000_0_0)
            Facts.shapeCasts_S1x800000_S800000) (ix1 e)).toInt < 50000 := by
  haveI : Subsingleton S_.Idx := ⟨fun a b => funext fun d => d.elim0⟩
  -- the right conjunct is the reduction over all edges; it is 1, so the bit of edge e is 1
  have h2 := (IntOp.andi_eq_one.1 h).2
  have h3 := Host.reduce_andi_all _ _ _ _ _ h2 (ix1 e)
  obtain ⟨hge, hlt⟩ := IntOp.andi_eq_one.1 h3
  -- the two comparisons of edge e, read as inequalities of signed readings
  have h0' := IntOp.cmpi_sge.1 hge
  have h1' := IntOp.cmpi_slt.1 hlt
  have hz : (0#32 : BitVec 32).toInt = 0 := by decide
  have hM : (50000#32 : BitVec 32).toInt = 50000 := by decide
  rw [bcast_constI, constantI_at, hz] at h0'
  rw [bcast_constI, constantI_at, hM] at h1'
  exact ⟨h0', h1'⟩

/-- With every source index in [0, 50000): the fill-mode selection around a gather over the wrapped index column is the
    gathered array. (`idx` is the wrapped index column; it is named so that the three places that read it share it.) -/
theorem take_fill_eq {α : Type} (s : IVec ⟨1, ![800000]⟩ 32)
    (hs : ∀ e : Fin 800000, 0 ≤ (s (ix1 e)).toInt ∧ (s (ix1 e)).toInt < 50000)
    (hb0 : (⟨0, ![]⟩ : Shape).BroadcastsInDim ⟨1, ![800000]⟩ ![])
    (hcol : (⟨1, ![800000]⟩ : Shape).BroadcastsInDim ⟨2, ![800000, 1]⟩ ![0])
    (hb1 : (⟨0, ![]⟩ : Shape).BroadcastsInDim ⟨2, ![800000, 1]⟩ ![])
    (hb2 : (⟨1, ![1]⟩ : Shape).BroadcastsInDim ⟨2, ![1, 1]⟩ ![1])
    (hb3 : (⟨2, ![1, 1]⟩ : Shape).BroadcastsInDim ⟨2, ![800000, 1]⟩ ![0, 1])
    (hred : (⟨2, ![800000, 1]⟩ : Shape).ReducesTo [1] ⟨1, ![800000]⟩) (h0 : 0 < (⟨0, ![]⟩ : Shape).numel)
    (hrow : (⟨1, ![800000]⟩ : Shape).BroadcastsInDim ⟨2, ![800000, 64]⟩ ![0])
    (idx : IVec ⟨2, ![800000, 1]⟩ 32)
    (hidx : idx = broadcastInDim ⟨2, ![800000, 1]⟩ ![0] hcol
        (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
    (g fill : (⟨2, ![800000, 64]⟩ : Shape).Idx → α) :
    select (broadcastInDim ⟨2, ![800000, 64]⟩ ![0] hrow
        (Host.reduce IntOp.andi
          (andi (cmpi .sge idx (broadcastInDim ⟨2, ![800000, 1]⟩ ![] hb1 (constantI ⟨0, ![]⟩ 32 0#32)))
                (cmpi .sle idx (broadcastInDim ⟨2, ![800000, 1]⟩ ![0, 1] hb3
                  (broadcastInDim ⟨2, ![1, 1]⟩ ![1] hb2 (constantI ⟨1, ![1]⟩ 32 49999#32)))))
          (constantI ⟨0, ![]⟩ 1 1#1) hred h0)) g fill = g := by
  subst hidx
  funext i
  obtain ⟨e, f, rfl⟩ : ∃ (e : Fin 800000) (f : Fin 64), i = ix2 e f := ⟨i 0, i 1, eq_ix2 i⟩
  rw [select_apply]
  have hne : (800000 : Nat) ≠ 1 := by decide
  -- the bit laid along the rows is the reduction's bit of row e, and that bit is 1
  rw [bcast_along0 hne hrow _ e f]
  rw [reduce_andi_col1 (u := ⟨0, ![]⟩) _ (constantI ⟨0, ![]⟩ 1 1#1) hred h0 rfl e ?_, select_one]
  -- the range test of row e, read at the words
  simp only [andi, cmpi]
  rw [col_at hne hcol _ e, select_apply]
  simp only [cmpi, addi, bcast_constI, constantI_at]
  exact row_word (s (ix1 e)) (hs e).1 (hs e).2

open Cert.Pre_finite_inputs in
/-- The precondition, read: all ones means in particular that every source index lies in [0, 50000). -/
theorem src_in_range [Cert.Pre_finite_inputs.Facts]
    (a0 : FVec Ideal S50000x64 .f32) (a1 : IVec S2x800000 32) (a2 : FVec Ideal S800000x32 .f32) (a3 : IVec S50000 32)
    (a4 : FVec Ideal S96x64 .f32) (a5 : FVec Ideal S64 .f32) (a6 : FVec Ideal S64x64 .f32) (a7 : FVec Ideal S64 .f32)
    (a8 : FVec Ideal S64 .f32) (a9 : FVec Ideal S96x64 .f32) (a10 : FVec Ideal S64 .f32) (a11 : FVec Ideal S64x64 .f32)
    (a12 : FVec Ideal S64 .f32) (a13 : FVec Ideal S64 .f32) (a14 : FVec Ideal S64x1 .f32) (a15 : FVec Ideal S1 .f32)
    (h : Cert.Pre_finite_inputs.fn (F := Ideal) a0 a1 a2 a3 a4 a5 a6 a7 a8 a9 a10 a11 a12 a13 a14 a15 = fun _ => 1#1)
    (e : Fin 800000) :
    0 ≤ ((shapeCast S800000 (extractStridedSlice S1x800000 ![0, 0] a1 Facts.slices_S2x800000_S1x800000_0_0)
            Facts.shapeCasts_S1x800000_S800000) (ix1 e)).toInt
    ∧ ((shapeCast S800000 (extractStridedSlice S1x800000 ![0, 0] a1 Facts.slices_S2x800000_S1x800000_0_0)
            Facts.shapeCasts_S1x800000_S800000) (ix1 e)).toInt < 50000 := by
  exact part4_range a1 _ _ (congrFun h ix0) e

end Cert.TakePre

end
-- ==== Proof.MsgSpec.lean ====
/-
  THE MESSAGE OF AN EDGE. Edge e carries the row  x_src(e) ++ a(e)  of 64 + 32 = 96 features; its message is
      relu( (x_src(e) ++ a(e)) · W + b ),   entry q :   max( Σ_{k<96} row(e,k) · W(k,q) + b(q), 0 ).
  Both programs compute exactly this array of 800000 × 64 extended reals: one block of 8000 edges at a time in the
  kernel's two launches, as one concatenation, one matrix product, one broadcast sum and one maximum on the host.
  A sum of products needs no law beyond the order of its terms, so nothing here asks the entries to be finite.
-/
import Idealize.ShloMosaic.Lib.ValueIdx
import Idealize.ShloMosaic.PureOps.Ideal.Laws

open scoped BigOperators

noncomputable section

namespace Cert.EdgeMsg

open Idealize.ShloMosaic Idealize.ShloMosaic.ValueIdx

/-- Entry k of edge e's feature row: the gathered node features for k < 64, the edge's own attributes after them. -/
def catRow (xg : (⟨2, ![800000, 64]⟩ : Shape).Idx → EReal) (ea : (⟨2, ![800000, 32]⟩ : Shape).Idx → EReal)
    (e : Fin 800000) (k : Fin 96) : EReal :=
  if h : k.val < 64 then xg (ix2 e ⟨k.val, h⟩) else ea (ix2 e ⟨k.val - 64, by have := k.isLt; omega⟩)

/-- Entry q of edge e's message: the row against column q of the weights, plus the bias, cut below at zero (the zero
    kept as the f32 word both programs spell). -/
def msgAt (xg : (⟨2, ![800000, 64]⟩ : Shape).Idx → EReal) (ea : (⟨2, ![800000, 32]⟩ : Shape).Idx → EReal)
    (W : (⟨2, ![96, 64]⟩ : Shape).Idx → EReal) (b : (⟨1, ![64]⟩ : Shape).Idx → EReal) (e : Fin 800000) (q : Fin 64) : EReal :=
  max ((∑ k : Fin 96, catRow xg ea e k * W (ix2 k q)) + b (ix1 q)) (Ideal.ofBits .f32 0x00000000#32)

/-- The array of all messages. -/
def msg (xg : (⟨2, ![800000, 64]⟩ : Shape).Idx → EReal) (ea : (⟨2, ![800000, 32]⟩ : Shape).Idx → EReal)
    (W : (⟨2, ![96, 64]⟩ : Shape).Idx → EReal) (b : (⟨1, ![64]⟩ : Shape).Idx → EReal) :
    (⟨2, ![800000, 64]⟩ : Shape).Idx → EReal :=
  fun i => msgAt xg ea W b ⟨(i 0).val, (i 0).isLt⟩ ⟨(i 1).val, (i 1).isLt⟩

theorem msg_ix2 (xg : (⟨2, ![800000, 64]⟩ : Shape).Idx → EReal) (ea : (⟨2, ![800000, 32]⟩ : Shape).Idx → EReal)
    (W : (⟨2, ![96, 64]⟩ : Shape).Idx → EReal) (b : (⟨1, ![64]⟩ : Shape).Idx → EReal) (e : Fin 800000) (q : Fin 64) :
    msg xg ea W b (ix2 e q) = msgAt xg ea W b e q := rfl

end Cert.EdgeMsg

end
-- ==== Proof.MsgKernel.lean ====
/-
  WHAT EACH LAUNCH LEAVES IN ITS OUTPUT ARRAY. The edge kernel runs over 100 grid points; point t loads rows
  8000 t … 8000 t + 7999 of the gathered features and of the edge attributes, the whole 96 × 64 weights and the bias,
  and stores the 8000 × 64 block  relu( (x ++ a) · W + b )  of those rows. The 100 blocks tile the 800000 × 64 output,
  so the output array ends as the array of all messages (MsgSpec), whatever the arrays held when the launch began.
-/
import proofs.«421166_j4243427688733_1_alg».proof.Proof.Gen.KernelIdeal.Frame
import proofs.«421166_j4243427688733_1_alg».proof.Proof.MsgSpec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.MsgKernel

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The block's arithmetic at an index -/

/-- The product's left operand is read at the output's row … -/
private theorem lhs_dot_0 (i : S8000x64.Idx) (q : dot_S8000x96_S96x64_S8000x64_1_0_0_1_n_n.contr.Idx) :
    (dot_S8000x96_S96x64_S8000x64_1_0_0_1_n_n.lhsIdx i q 0).val = (i 0).val := by
  unfold DotDims.lhsIdx
  rw [dif_neg (show ¬(0 : Fin S8000x96.rank) ∈ dot_S8000x96_S96x64_S8000x64_1_0_0_1_n_n.lhsBatch by decide), dif_pos (show (0 : Fin S8000x96.rank) ∈ dot_S8000x96_S96x64_S8000x64_1_0_0_1_n_n.lhsNonContracting by decide)]
  rfl
/-- … and the summed column; -/
private theorem lhs_dot_1 (i : S8000x64.Idx) (q : dot_S8000x96_S96x64_S8000x64_1_0_0_1_n_n.contr.Idx) :
    (dot_S8000x96_S96x64_S8000x64_1_0_0_1_n_n.lhsIdx i q 1).val = (q ⟨0, by decide⟩).val :=
  dot_S8000x96_S96x64_S8000x64_1_0_0_1_n_n.lhsIdx_val_of_single rfl i q
/-- the right operand at the summed row … -/
private theorem rhs_dot_0 (i : S8000x64.Idx) (q : dot_S8000x96_S96x64_S8000x64_1_0_0_1_n_n.contr.Idx) :
    (dot_S8000x96_S96x64_S8000x64_1_0_0_1_n_n.rhsIdx i q 0).val = (q ⟨0, by decide⟩).val :=
  dot_S8000x96_S96x64_S8000x64_1_0_0_1_n_n.rhsIdx_val_of_single rfl i q
/-- … and the output's column. -/
private theorem rhs_dot_1 (i : S8000x64.Idx) (q : dot_S8000x96_S96x64_S8000x64_1_0_0_1_n_n.contr.Idx) :
    (dot_S8000x96_S96x64_S8000x64_1_0_0_1_n_n.rhsIdx i q 1).val = (i 1).val := by
  unfold DotDims.rhsIdx
  rw [dif_neg (show ¬(1 : Fin S96x64.rank) ∈ dot_S8000x96_S96x64_S8000x64_1_0_0_1_n_n.rhsBatch by decide), dif_pos (show (1 : Fin S96x64.rank) ∈ dot_S8000x96_S96x64_S8000x64_1_0_0_1_n_n.rhsNonContracting by decide)]
  rfl

/-- The 8000 × 96 by 96 × 64 product into a zero accumulator, entry (p, q): the sum over the 96 columns. -/
private theorem product_entry (y : FVec Ideal S8000x96 .bf16) (w : FVec Ideal S96x64 .bf16) (p : Fin 8000) (q : Fin 64) :
    matmul dot_S8000x96_S96x64_S8000x64_1_0_0_1_n_n none y w (constant (F := Ideal) S8000x64 .f32 0x00000000#32) (ix2 p q)
      = ∑ k : Fin 96, y (ix2 p k) * w (ix2 k q) := by
  simp only [matmul]
  rw [Ideal.matmul_constant_zero_apply, ← Equiv.sum_comp (ValueIdx.contrEquiv1 dot_S8000x96_S96x64_S8000x64_1_0_0_1_n_n 96 rfl rfl).symm]
  refine Finset.sum_congr rfl fun k _ => ?_
  have hk := ValueIdx.contrEquiv1_symm_val dot_S8000x96_S96x64_S8000x64_1_0_0_1_n_n 96 rfl rfl k
  have el : dot_S8000x96_S96x64_S8000x64_1_0_0_1_n_n.lhsIdx (ix2 p q) ((ValueIdx.contrEquiv1 dot_S8000x96_S96x64_S8000x64_1_0_0_1_n_n 96 rfl rfl).symm k) = ix2 p k := funext fun a => Fin.ext (by
    match a with
    | ⟨0, _⟩ => exact lhs_dot_0 _ _
    | ⟨1, _⟩ => exact (lhs_dot_1 _ _).trans hk)
  have er : dot_S8000x96_S96x64_S8000x64_1_0_0_1_n_n.rhsIdx (ix2 p q) ((ValueIdx.contrEquiv1 dot_S8000x96_S96x64_S8000x64_1_0_0_1_n_n 96 rfl rfl).symm k) = ix2 k q := funext fun a => Fin.ext (by
    match a with
    | ⟨0, _⟩ => exact (rhs_dot_0 _ _).trans hk
    | ⟨1, _⟩ => exact rhs_dot_1 _ _)
  rw [el, er]

/-- The joined row: columns below 64 come from the first piece, the rest from the second. -/
private theorem joined_row_entry (u : S8000x64.Idx → EReal) (v : S8000x32.Idx → EReal) (p : Fin 8000) (k : Fin 96) :
    concatenate S8000x96 1 [⟨S8000x64, u⟩, ⟨S8000x32, v⟩] concatenates_S8000x64_S8000x32_S8000x96_d1 (ix2 p k)
      = if h : k.val < 64 then u (ix2 p ⟨k.val, h⟩) else v (ix2 p ⟨k.val - 64, by have := k.isLt; omega⟩) := by
  by_cases h : k.val < 64
  · rw [dif_pos h]
    exact concatenate_pair_apply_left (1 : Fin S8000x96.rank) u v concatenates_S8000x64_S8000x32_S8000x96_d1 (ix2 p k) rfl
      (ix2 p ⟨k.val, h⟩) (fun b => by match b with | ⟨0, _⟩ => rfl | ⟨1, _⟩ => rfl)
  · rw [dif_neg h]
    exact concatenate_pair_apply_right (1 : Fin S8000x96.rank) u v concatenates_S8000x64_S8000x32_S8000x96_d1 (ix2 p k) rfl rfl
      (ix2 p ⟨k.val - 64, by have := k.isLt; omega⟩)
      (fun b hb => by match b with | ⟨0, _⟩ => rfl | ⟨1, _⟩ => exact absurd rfl hb)
      (by show (k.val - 64) + 64 = k.val; omega)

/-- The bias as a 1 × 64 row spread over the 8000 rows, entry (p, q): the bias at q. -/
private theorem bias_row_entry (b : S64.Idx → EReal) (p : Fin 8000) (q : Fin 64) :
    broadcastTo S8000x64 (shapeCast S1x64 b shapeCasts_S64_S1x64) broadcasts_S1x64_S8000x64 (ix2 p q) = b (ix1 q) := by
  rw [broadcastTo_apply (shapeCast S1x64 b shapeCasts_S64_S1x64) broadcasts_S1x64_S8000x64 (ix2 p q) (ix2 (0 : Fin 1) q)
    (fun a => by match a with | ⟨0, _⟩ => rfl | ⟨1, _⟩ => rfl)]
  exact (shapeCast_addUnit_apply ![64] b shapeCasts_S64_S1x64 (ix2 (0 : Fin 1) q)).trans
    (congrArg b (funext fun a => by match a with | ⟨0, _⟩ => rfl))

/-- ENTRY (p, q) OF THE BLOCK THE BODY STORES: the joined row of the two loaded blocks against column q of the weights,
    plus the bias, cut below at zero. -/
theorem stored_entry (x0 : Vec Ideal S8000x64 .f32) (x1 : Vec Ideal S8000x32 .f32) (x2 : Vec Ideal S96x64 .f32) (x3 : Vec Ideal S64 .f32)
    (p : Fin 8000) (q : Fin 64) :
    k0_pay1 (F := Ideal) x0 x1 x2 x3 (ix2 p q)
      = max ((∑ k : Fin 96, (if h : k.val < 64 then x0 (ix2 p ⟨k.val, h⟩) else x1 (ix2 p ⟨k.val - 64, by have := k.isLt; omega⟩)) * x2 (ix2 k q)) + x3 (ix1 q))
          (Ideal.ofBits .f32 0x00000000#32) := by
  unfold k0_pay1
  rw [maximumf_apply, addf_apply, broadcast_apply, product_entry, bias_row_entry, shapeCast_self]
  refine congrArg (fun s => max (s + x3 (ix1 q)) _) (Finset.sum_congr rfl fun k _ => ?_)
  rw [joined_row_entry]
  rfl

/-- ENTRY (p, q) OF A STORED BLOCK IS A MESSAGE, once the loaded blocks are known to be rows of the arrays: if row p of the
    two loaded row blocks is edge e's row of the features and of the attributes, and the other two loads are the weights and
    the bias, the stored entry is entry q of edge e's message. -/
private theorem stored_entry_is_message (xg : S800000x64.Idx → EReal) (ea : S800000x32.Idx → EReal) (W : S96x64.Idx → EReal) (b : S64.Idx → EReal)
    (x0 : Vec Ideal S8000x64 .f32) (x1 : Vec Ideal S8000x32 .f32) (x2 : Vec Ideal S96x64 .f32) (x3 : Vec Ideal S64 .f32)
    (e : Fin 800000) (p : Fin 8000) (q : Fin 64)
    (h0 : ∀ k : Fin 64, x0 (ix2 p k) = xg (ix2 e k)) (h1 : ∀ k : Fin 32, x1 (ix2 p k) = ea (ix2 e k))
    (h2 : ∀ i, x2 i = W i) (h3 : ∀ i, x3 i = b i) :
    k0_pay1 (F := Ideal) x0 x1 x2 x3 (ix2 p q) = Cert.EdgeMsg.msg xg ea W b (ix2 e q) := by
  rw [stored_entry, Cert.EdgeMsg.msg_ix2]
  unfold Cert.EdgeMsg.msgAt Cert.EdgeMsg.catRow
  rw [h3]
  refine congrArg (fun s => max (s + b (ix1 q)) _) (Finset.sum_congr rfl fun k _ => ?_)
  rw [h2]
  by_cases h : k.val < 64
  · rw [dif_pos h, dif_pos h, h0]
  · rw [dif_neg h, dif_neg h, h1]

/-- The second launch's body stores the same arithmetic of its loads as the first's. -/
private theorem second_body_eq_first (x0 : Vec Ideal S8000x64 .f32) (x1 : Vec Ideal S8000x32 .f32) (x2 : Vec Ideal S96x64 .f32) (x3 : Vec Ideal S64 .f32) :
    k1_pay1 (F := Ideal) x0 x1 x2 x3 = k0_pay1 (F := Ideal) x0 x1 x2 x3 := rfl

/-! ## From the blocks to the array -/

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

/-! ### The first launch -/

/-- The printed index maps over the grid: point t takes block t of the rows of the features, of the attributes and of
    the output, and the one block of the weights and of the bias. -/
theorem rows_of_point0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- WHAT POINT t WRITES BACK is block t of the array of messages of the arrays the launch was entered with. -/
theorem written_back0 (c : Dev nD) (t : Fin cfg0.N) :
    (dat0 (F := Ideal) V c).flushed 4 t
      = ((cfg0.win 4).blk t).view.read (Elt Ideal) (Cert.EdgeMsg.msg (V c main_v4) (V c main_arg2) (V c main_arg4) (V c main_arg5)) := by
  show (cfg0.win 4).cut (grid0.coords t) ((dat0 V c).after 4 t) = _
  rw [after0_4]
  unfold out0_4
  rw [View.canon_unit_zero hz2]
  simp only [View.ld_unit_zero (S := S8000x64) hz2, View.ld_unit_zero (S := S8000x32) hz2, View.ld_unit_zero (S := S96x64) hz2, View.ld_unit_zero (S := S64) hz1]
  obtain ⟨a0, a1, b0, b1, w0, w1, s0, o0, o1⟩ := rows_of_point0 t
  have ht : t.val < 100 := lt_of_lt_of_eq t.isLt N_0
  funext j
  obtain ⟨p, q, rfl⟩ : ∃ (p : Fin 8000) (q : Fin 64), j = ix2 p q := ⟨j 0, j 1, eq_ix2 j⟩
  have hp : p.val < 8000 := p.isLt
  show k0_pay1 (F := Ideal) (iblk0 V c 0 t) (iblk0 V c 1 t) (iblk0 V c 2 t) (iblk0 V c 3 t) (ix2 p q)
     = Cert.EdgeMsg.msg (V c main_v4) (V c main_arg2) (V c main_arg4) (V c main_arg5) (((cfg0.win 4).blk t).view.emb (ix2 p q))
  have he : ((cfg0.win 4).blk t).view.emb (ix2 p q) = ix2 (⟨t.val * 8000 + p.val, by omega⟩ : Fin 800000) q := by
    funext a; apply Fin.ext
    match a with
    | ⟨0, _⟩ => show win0_4.index t (0 : Fin 2) * 8000 + 1 * p.val = t.val * 8000 + p.val; omega
    | ⟨1, _⟩ => show win0_4.index t (1 : Fin 2) * 64 + 1 * q.val = q.val; omega
  rw [he]
  refine stored_entry_is_message _ _ _ _ _ _ _ _ _ p q (fun k => ?_) (fun k => ?_) (fun i => ?_) (fun i => ?_)
  · show V c main_v4 (((cfg0.win 0).blk t).view.emb (ix2 p k)) = _
    refine congrArg _ (funext fun a => Fin.ext ?_)
    match a with
    | ⟨0, _⟩ => show win0_0.index t (0 : Fin 2) * 8000 + 1 * p.val = t.val * 8000 + p.val; omega
    | ⟨1, _⟩ => show win0_0.index t (1 : Fin 2) * 64 + 1 * k.val = k.val; omega
  · show V c main_arg2 (((cfg0.win 1).blk t).view.emb (ix2 p k)) = _
    refine congrArg _ (funext fun a => Fin.ext ?_)
    match a with
    | ⟨0, _⟩ => show win0_1.index t (0 : Fin 2) * 8000 + 1 * p.val = t.val * 8000 + p.val; omega
    | ⟨1, _⟩ => show win0_1.index t (1 : Fin 2) * 32 + 1 * k.val = k.val; omega
  · show V c main_arg4 (((cfg0.win 2).blk t).view.emb i) = _
    refine congrArg _ (funext fun a => Fin.ext ?_)
    match a with
    | ⟨0, _⟩ => show win0_2.index t (0 : Fin 2) * 96 + 1 * (i 0).val = (i 0).val; omega
    | ⟨1, _⟩ => show win0_2.index t (1 : Fin 2) * 64 + 1 * (i 1).val = (i 1).val; omega
  · show V c main_arg5 (((cfg0.win 3).blk t).view.emb i) = _
    refine congrArg _ (funext fun a => Fin.ext ?_)
    match a with
    | ⟨0, _⟩ => show win0_3.index t (0 : Fin 1) * 64 + 1 * (i 0).val = (i 0).val; omega

/-- An index of the output array is in point t's block iff each coordinate is in the block's range on its axis. -/
theorem mem_block0 (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v5).slice (win0_4.rect t)).set ↔ _
  rw [View.set_slice_whole, Rect.mem_set_unit]
  exact Iff.rfl

/-- The 100 blocks tile the array: row r lies in the block of point r / 8000, which is written back. -/
theorem blocks_tile0 (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  have hN : (i 0).val / 8000 < cfg0.N := by show _ < grid0.N; rw [N_0]; omega
  obtain ⟨-, -, -, -, -, -, -, o0, o1⟩ := rows_of_point0 ⟨(i 0).val / 8000, hN⟩
  have o0' : win0_4.index ⟨(i 0).val / 8000, hN⟩ (0 : Fin 2) = (i 0).val / 8000 := o0
  refine ⟨⟨(i 0).val / 8000, hN⟩, flush0_4 _, ?_⟩
  rw [mem_block0]
  intro a
  match a with
  | ⟨0, _⟩ =>
    show win0_4.index ⟨(i 0).val / 8000, hN⟩ (0 : Fin 2) * 8000 ≤ (i 0).val ∧ (i 0).val < win0_4.index ⟨(i 0).val / 8000, hN⟩ (0 : Fin 2) * 8000 + 8000
    omega
  | ⟨1, _⟩ =>
    show win0_4.index ⟨(i 0).val / 8000, hN⟩ (1 : Fin 2) * 64 ≤ (i 1).val ∧ (i 1).val < win0_4.index ⟨(i 0).val / 8000, hN⟩ (1 : Fin 2) * 64 + 64
    omega

/-- The first launch's output array after its last grid point: the messages of the arrays it was entered with. -/
theorem region0_array (c : Dev nD) :
    (dat0 (F := Ideal) V c).arrAt 4 cfg0.N
      = Cert.EdgeMsg.msg (V c main_v4) (V c main_arg2) (V c main_arg4) (V c main_arg5) :=
  (dat0 (F := Ideal) V c).arrAt_eq_of_cover 4 (Cert.EdgeMsg.msg (V c main_v4) (V c main_arg2) (V c main_arg4) (V c main_arg5))
    (fun t _ => written_back0 V c t) blocks_tile0

/-! ### The second launch -/

/-- The printed index maps over the grid: point t takes block t of the rows of the features, of the attributes and of
    the output, and the one block of the weights and of the bias. -/
theorem rows_of_point1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- WHAT POINT t WRITES BACK is block t of the array of messages of the arrays the launch was entered with (its body's
    arithmetic is the first launch's, term for term). -/
theorem written_back1 (c : Dev nD) (t : Fin cfg1.N) :
    (dat1 (F := Ideal) V c).flushed 4 t
      = ((cfg1.win 4).blk t).view.read (Elt Ideal) (Cert.EdgeMsg.msg (V c main_v46) (V c main_arg2) (V c main_arg9) (V c main_arg10)) := by
  show (cfg1.win 4).cut (grid1.coords t) ((dat1 V c).after 4 t) = _
  rw [after1_4]
  unfold out1_4
  rw [View.canon_unit_zero hz2]
  simp only [View.ld_unit_zero (S := S8000x64) hz2, View.ld_unit_zero (S := S8000x32) hz2, View.ld_unit_zero (S := S96x64) hz2, View.ld_unit_zero (S := S64) hz1]
  obtain ⟨a0, a1, b0, b1, w0, w1, s0, o0, o1⟩ := rows_of_point1 t
  have ht : t.val < 100 := lt_of_lt_of_eq t.isLt N_1
  funext j
  obtain ⟨p, q, rfl⟩ : ∃ (p : Fin 8000) (q : Fin 64), j = ix2 p q := ⟨j 0, j 1, eq_ix2 j⟩
  have hp : p.val < 8000 := p.isLt
  show k1_pay1 (F := Ideal) (iblk1 V c 0 t) (iblk1 V c 1 t) (iblk1 V c 2 t) (iblk1 V c 3 t) (ix2 p q)
     = Cert.EdgeMsg.msg (V c main_v46) (V c main_arg2) (V c main_arg9) (V c main_arg10) (((cfg1.win 4).blk t).view.emb (ix2 p q))
  have he : ((cfg1.win 4).blk t).view.emb (ix2 p q) = ix2 (⟨t.val * 8000 + p.val, by omega⟩ : Fin 800000) q := by
    funext a; apply Fin.ext
    match a with
    | ⟨0, _⟩ => show win1_4.index t (0 : Fin 2) * 8000 + 1 * p.val = t.val * 8000 + p.val; omega
    | ⟨1, _⟩ => show win1_4.index t (1 : Fin 2) * 64 + 1 * q.val = q.val; omega
  rw [he, second_body_eq_first]
  refine stored_entry_is_message _ _ _ _ _ _ _ _ _ p q (fun k => ?_) (fun k => ?_) (fun i => ?_) (fun i => ?_)
  · show V c main_v46 (((cfg1.win 0).blk t).view.emb (ix2 p k)) = _
    refine congrArg _ (funext fun a => Fin.ext ?_)
    match a with
    | ⟨0, _⟩ => show win1_0.index t (0 : Fin 2) * 8000 + 1 * p.val = t.val * 8000 + p.val; omega
    | ⟨1, _⟩ => show win1_0.index t (1 : Fin 2) * 64 + 1 * k.val = k.val; omega
  · show V c main_arg2 (((cfg1.win 1).blk t).view.emb (ix2 p k)) = _
    refine congrArg _ (funext fun a => Fin.ext ?_)
    match a with
    | ⟨0, _⟩ => show win1_1.index t (0 : Fin 2) * 8000 + 1 * p.val = t.val * 8000 + p.val; omega
    | ⟨1, _⟩ => show win1_1.index t (1 : Fin 2) * 32 + 1 * k.val = k.val; omega
  · show V c main_arg9 (((cfg1.win 2).blk t).view.emb i) = _
    refine congrArg _ (funext fun a => Fin.ext ?_)
    match a with
    | ⟨0, _⟩ => show win1_2.index t (0 : Fin 2) * 96 + 1 * (i 0).val = (i 0).val; omega
    | ⟨1, _⟩ => show win1_2.index t (1 : Fin 2) * 64 + 1 * (i 1).val = (i 1).val; omega
  · show V c main_arg10 (((cfg1.win 3).blk t).view.emb i) = _
    refine congrArg _ (funext fun a => Fin.ext ?_)
    match a with
    | ⟨0, _⟩ => show win1_3.index t (0 : Fin 1) * 64 + 1 * (i 0).val = (i 0).val; omega

/-- An index of the output array is in point t's block iff each coordinate is in the block's range on its axis. -/
theorem mem_block1 (t : Fin cfg1.N) (i : S800000x64.Idx) :
    i ∈ ((cfg1.win 4).blk t).view.set ↔ ∀ a : Fin 2, win1_4.index t a * S8000x64.size a ≤ (i a).val ∧ (i a).val < win1_4.index t a * S8000x64.size a + S8000x64.size a := by
  show i ∈ ((View.whole main_v47).slice (win1_4.rect t)).set ↔ _
  rw [View.set_slice_whole, Rect.mem_set_unit]
  exact Iff.rfl

/-- The 100 blocks tile the array: row r lies in the block of point r / 8000, which is written back. -/
theorem blocks_tile1 (i : S800000x64.Idx) :
    ∃ t : Fin cfg1.N, (cfg1.win 4).flush t = true ∧ i ∈ ((cfg1.win 4).blk t).view.set := by
  have hi0 : (i 0).val < 800000 := (i 0).isLt
  have hi1 : (i 1).val < 64 := (i 1).isLt
  have hN : (i 0).val / 8000 < cfg1.N := by show _ < grid1.N; rw [N_1]; omega
  obtain ⟨-, -, -, -, -, -, -, o0, o1⟩ := rows_of_point1 ⟨(i 0).val / 8000, hN⟩
  have o0' : win1_4.index ⟨(i 0).val / 8000, hN⟩ (0 : Fin 2) = (i 0).val / 8000 := o0
  refine ⟨⟨(i 0).val / 8000, hN⟩, flush1_4 _, ?_⟩
  rw [mem_block1]
  intro a
  match a with
  | ⟨0, _⟩ =>
    show win1_4.index ⟨(i 0).val / 8000, hN⟩ (0 : Fin 2) * 8000 ≤ (i 0).val ∧ (i 0).val < win1_4.index ⟨(i 0).val / 8000, hN⟩ (0 : Fin 2) * 8000 + 8000
    omega
  | ⟨1, _⟩ =>
    show win1_4.index ⟨(i 0).val / 8000, hN⟩ (1 : Fin 2) * 64 ≤ (i 1).val ∧ (i 1).val < win1_4.index ⟨(i 0).val / 8000, hN⟩ (1 : Fin 2) * 64 + 64
    omega

/-- The second launch's output array after its last grid point, likewise. -/
theorem region1_array (c : Dev nD) :
    (dat1 (F := Ideal) V c).arrAt 4 cfg1.N
      = Cert.EdgeMsg.msg (V c main_v46) (V c main_arg2) (V c main_arg9) (V c main_arg10) :=
  (dat1 (F := Ideal) V c).arrAt_eq_of_cover 4 (Cert.EdgeMsg.msg (V c main_v46) (V c main_arg2) (V c main_arg9) (V c main_arg10))
    (fun t _ => written_back1 V c t) blocks_tile1

end Cert.KernelIdeal.MsgKernel

end
-- ==== Proof.MsgRef.lean ====
/-
  THE REFERENCE'S MESSAGES. On the host the messages of a layer are one concatenation of the gathered node features with
  the edge attributes along the feature axis, one matrix product with the 96 × 64 weights, the bias laid along the rows
  and added, and a maximum with zero. Read at an index this is the array of all messages (MsgSpec): entry (e, q) is
  max( Σ_{k<96} row(e,k) · W(k,q) + b(q), 0 ), the row's entry k coming from the first piece for k < 64 and from the
  second after that.
-/
import proofs.«421166_j4243427688733_1_alg».proof.Proof.Gen.ReferenceIdeal.Read
import proofs.«421166_j4243427688733_1_alg».proof.Proof.MsgSpec
import Idealize.ShloMosaic.Lib.Pipeline.Value
import Idealize.ShloMosaic.Lib.ValueIdx
import Idealize.ShloMosaic.PureOps.Ideal.Laws

open scoped BigOperators

noncomputable section

namespace Cert.ReferenceIdeal.MsgRef

open Idealize.ShloMosaic Idealize.ShloMosaic.TcCoe Idealize.ShloMosaic.ValueIdx
open Cert.ReferenceIdeal Cert.ReferenceIdeal.Read
open Cert.ReferenceIdeal.Gen (concatenates_S800000x64_S800000x32_S800000x96_d1)

/-- The concatenation of the gathered rows with the edge attributes, read at an index whose coordinates are (e, k):
    entry k of edge e's feature row. Below 64 the coordinate falls in the first piece, at the same place; from 64 on
    it falls in the second, 64 less. -/
private theorem cat_apply (xg : S800000x64.Idx → EReal) (ea : S800000x32.Idx → EReal) (e : Fin 800000) (k : Fin 96)
    (j : S800000x96.Idx) (h0 : (j 0).val = e.val) (h1 : (j 1).val = k.val) :
    concatenate S800000x96 1 [⟨S800000x64, xg⟩, ⟨S800000x32, ea⟩] concatenates_S800000x64_S800000x32_S800000x96_d1 j
      = Cert.EdgeMsg.catRow xg ea e k := by
  unfold Cert.EdgeMsg.catRow
  by_cases h : k.val < 64
  · rw [dif_pos h]
    exact concatenate_pair_apply_left (1 : Fin S800000x96.rank) xg ea _ j rfl (ix2 e ⟨k.val, h⟩) (fun b => match b with
      | ⟨0, _⟩ => h0.symm
      | ⟨1, _⟩ => h1.symm)
  · rw [dif_neg h]
    have hk := k.isLt
    exact concatenate_pair_apply_right (1 : Fin S800000x96.rank) xg ea _ j rfl rfl
      (ix2 e ⟨k.val - 64, by omega⟩) (fun b hb => match b, hb with
      | ⟨0, _⟩, _ => h0.symm
      | ⟨1, _⟩, hb => absurd rfl hb) (by show (k.val - 64) + 64 = (j 1).val; omega)

/-- The whole chain at one entry: the product's sum over the joined row, the bias of the column, the cut at zero. The
    indices the operands are read at are given by their coordinates only, so that both layers' index functions fit. -/
private theorem chain_apply (xg : S800000x64.Idx → EReal) (ea : S800000x32.Idx → EReal) (W : S96x64.Idx → EReal)
    (b : S64.Idx → EReal) (e : Fin 800000) (q : Fin 64) (l : Fin 96 → S800000x96.Idx) (r : Fin 96 → S96x64.Idx)
    (jb : S64.Idx) (hl0 : ∀ k, ((l k) 0).val = e.val) (hl1 : ∀ k, ((l k) 1).val = k.val)
    (hr : ∀ k, r k = ix2 k q) (hb : jb = ix1 q) :
    max ((∑ k : Fin 96, concatenate S800000x96 1 [⟨S800000x64, xg⟩, ⟨S800000x32, ea⟩]
        concatenates_S800000x64_S800000x32_S800000x96_d1 (l k) * W (r k)) + b jb) (Ideal.ofBits .f32 0x00000000#32)
      = Cert.EdgeMsg.msgAt xg ea W b e q := by
  unfold Cert.EdgeMsg.msgAt
  rw [hb]
  congr 2
  refine Finset.sum_congr rfl fun k _ => ?_
  rw [hr k, cat_apply xg ea e k (l k) (hl0 k) (hl1 k)]

/-- Layer 1: the reference's messages are the message array of its own gathered rows. -/
theorem v16_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x4 : (⟨S96x64, .f32⟩ : BufTy).Contents (Elt Ideal))
    (x5 : (⟨S64, .f32⟩ : BufTy).Contents (Elt Ideal)) :
    val_main_v16 (F := Ideal) x0 x1 x2 x4 x5 = Cert.EdgeMsg.msg (val_main_v10 (F := Ideal) x0 x1) x2 x4 x5 := by
  funext i
  obtain ⟨e, q, rfl⟩ : ∃ (e : Fin 800000) (q : Fin 64), i = ix2 e q := ⟨i 0, i 1, eq_ix2 i⟩
  rw [Cert.EdgeMsg.msg_ix2, val_main_v16_apply, val_main_v15_apply, val_main_v12_apply, val_main_v14_apply,
    val_main_v13_apply, val_main_call0_v0_apply, val_main_call0_cst_apply]
  unfold val_main_v11
  generalize val_main_v10 (F := Ideal) x0 x1 = xg
  rw [Ideal.maximumf_def, Ideal.addf_def, Ideal.ofBits_def]
  exact chain_apply xg x2 x4 x5 e q _ _ _ (fun k => rfl) (fun k => rfl)
    (fun k => funext fun a => match a with | ⟨0, _⟩ => rfl | ⟨1, _⟩ => rfl)
    (funext fun a => match a with | ⟨0, _⟩ => rfl)

/-- Layer 2, likewise, over the rows gathered from the first layer's output. -/
theorem v69_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x4 : (⟨S96x64, .f32⟩ : BufTy).Contents (Elt Ideal))
    (x5 : (⟨S64, .f32⟩ : BufTy).Contents (Elt Ideal)) (x6 : (⟨S64x64, .f32⟩ : BufTy).Contents (Elt Ideal))
    (x7 x8 : (⟨S64, .f32⟩ : BufTy).Contents (Elt Ideal)) (x9 : (⟨S96x64, .f32⟩ : BufTy).Contents (Elt Ideal))
    (x10 : (⟨S64, .f32⟩ : BufTy).Contents (Elt Ideal)) :
    val_main_v69 (F := Ideal) x0 x1 x2 x4 x5 x6 x7 x8 x9 x10
      = Cert.EdgeMsg.msg (val_main_v63 (F := Ideal) x0 x1 x2 x4 x5 x6 x7 x8) x2 x9 x10 := by
  funext i
  obtain ⟨e, q, rfl⟩ : ∃ (e : Fin 800000) (q : Fin 64), i = ix2 e q := ⟨i 0, i 1, eq_ix2 i⟩
  rw [Cert.EdgeMsg.msg_ix2, val_main_v69_apply, val_main_v68_apply, val_main_v65_apply, val_main_v67_apply,
    val_main_v66_apply, val_main_call2_v0_apply, val_main_call2_cst_apply]
  unfold val_main_v64
  generalize val_main_v63 (F := Ideal) x0 x1 x2 x4 x5 x6 x7 x8 = xg
  rw [Ideal.maximumf_def, Ideal.addf_def, Ideal.ofBits_def]
  exact chain_apply xg x2 x9 x10 e q _ _ _ (fun k => rfl) (fun k => rfl)
    (fun k => funext fun a => match a with | ⟨0, _⟩ => rfl | ⟨1, _⟩ => rfl)
    (funext fun a => match a with | ⟨0, _⟩ => rfl)

end Cert.ReferenceIdeal.MsgRef

end
-- ==== Proof.Stages1.lean ====
/-
  THE KERNEL PROGRAM'S FIRST LAYER, STAGE BY STAGE, AGAINST THE REFERENCE'S.
  Up to its first launch the kernel program slices the source and destination indices out of the edge list exactly as the
  reference does, and takes the source rows of x in fill mode; with every source index in [0, 50000) the fill never
  fires and the taken rows are the reference's gathered rows. The launch then leaves, in its output array, the messages
  of those rows: the reference's first-layer messages.
-/
import proofs.«421166_j4243427688733_1_alg».proof.Proof.Gen.KernelIdeal.Frame
import proofs.«421166_j4243427688733_1_alg».proof.Proof.Gen.ReferenceIdeal.Read
import proofs.«421166_j4243427688733_1_alg».proof.Proof.Reads
import proofs.«421166_j4243427688733_1_alg».proof.Proof.TakePre
import proofs.«421166_j4243427688733_1_alg».proof.Proof.MsgKernel
import proofs.«421166_j4243427688733_1_alg».proof.Proof.MsgRef
import Idealize.ShloMosaic.Lib.StableHlo.Run

set_option maxRecDepth 16384

noncomputable section

namespace Cert.Stages

open Idealize.ShloMosaic Idealize.ShloMosaic.TcCoe Idealize.SL.Sem Idealize.ShloMosaic.StableHlo Idealize.ShloMosaic.ValueIdx
open Cert.KernelIdeal Cert.KernelIdeal.Gen Cert.KernelIdeal.Reads
open Cert.ReferenceIdeal.Read

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-- Every source index lies in the table: what the precondition gives the stages below. -/
def SrcInRange : Prop :=
  ∀ e : Fin 800000, 0 ≤ ((val_main_v1 (F := Ideal) a1) (ix1 e)).toInt ∧ ((val_main_v1 (F := Ideal) a1) (ix1 e)).toInt < 50000

/-! ## Before the first launch -/

set_option maxHeartbeats 4000000 in
/-- The source indices: row 0 of the edge list. -/
theorem w1_v1 : W1 (F := Ideal) m ρ c (Proc.devRef .tc main_v1) = val_main_v1 (F := Ideal) a1 := by
  show StableHlo.after hostOps0 (W0 m ρ c) (Proc.devRef .tc main_v1) = _
  after_results_simp <;> (unfold val_main_v1 val_main_v0; rfl)

set_option maxHeartbeats 4000000 in
theorem w1_arg0 : W1 (F := Ideal) m ρ c (Proc.devRef .tc main_arg0) = a0 := by
  show StableHlo.after hostOps0 (W0 m ρ c) (Proc.devRef .tc main_arg0) = _
  after_results_simp <;> rfl

set_option maxHeartbeats 16000000 in
/-- The rows of x taken at the source indices: the reference's gathered rows. -/
theorem w2_v4 (hs : SrcInRange m c) :
    W2 (F := Ideal) m ρ c (Proc.devRef .tc main_v4) = val_main_v10 (F := Ideal) a0 a1 := by
  have e1 : (TRef.of (T := ⟨S800000, .i32⟩) main_v1).ofBuf (W1 (F := Ideal) m ρ c (Proc.devRef .tc main_v1)) = val_main_v1 (F := Ideal) a1 :=
    (ofBuf_v1 _).trans (w1_v1 m ρ c)
  have e0 : (TRef.of (T := ⟨S50000x64, .f32⟩) main_arg0).ofBuf (W1 (F := Ideal) m ρ c (Proc.devRef .tc main_arg0)) = a0 :=
    (ofBuf_arg0 _).trans (w1_arg0 m ρ c)
  have hidx : colK (val_main_v1 (F := Ideal) a1) = broadcastInDim ⟨2, ![800000, 1]⟩ ![0] bcast_S800000_S800000x1_0
        (select (cmpi .slt (val_main_v1 (F := Ideal) a1) (broadcastInDim ⟨1, ![800000]⟩ ![] bcast_S_S800000 (constantI ⟨0, ![]⟩ 32 0#32)))
                (addi (val_main_v1 (F := Ideal) a1) (broadcastInDim ⟨1, ![800000]⟩ ![] bcast_S_S800000 (constantI ⟨0, ![]⟩ 32 50000#32)))
                (val_main_v1 (F := Ideal) a1)) := rfl
  have key := Cert.TakePre.take_fill_eq (α := EReal) (val_main_v1 (F := Ideal) a1) hs bcast_S_S800000 bcast_S800000_S800000x1_0
    bcast_S_S800000x1 bcast_S1_S1x1_1 bcast_S1x1_S800000x1_0_1 reducesTo_S800000x1_S800000_d1 h_S_ bcast_S800000_S800000x64_0
    (colK (val_main_v1 (F := Ideal) a1)) hidx
  show StableHlo.after hostOps0_1 (W1 m ρ c) (Proc.devRef .tc main_v4) = _
  generalize W1 m ρ c = V1 at e0 e1 ⊢
  after_results_simp
  simp only [cast_cancel]
  rw [e1, e0, toBuf_v4]
  refine (key _ _).trans ?_
  unfold val_main_v10 val_main_v9 val_main_v8 val_main_v7 val_main_v6 val_main_c_0 val_main_v5 val_main_v4 val_main_c
  rfl

/-! ## Through the take, nothing else moves -/

set_option maxHeartbeats 4000000 in
/-- The destination indices: row 1 of the edge list. -/
theorem w1_v3 : W1 (F := Ideal) m ρ c (Proc.devRef .tc main_v3) = val_main_v3 (F := Ideal) a1 := by
  show StableHlo.after hostOps0 (W0 m ρ c) (Proc.devRef .tc main_v3) = _
  after_results_simp <;> (unfold val_main_v3 val_main_v2; rfl)

set_option maxHeartbeats 16000000 in
theorem w2_v1 : W2 (F := Ideal) m ρ c (Proc.devRef .tc main_v1) = val_main_v1 (F := Ideal) a1 := by
  have e1 := w1_v1 m ρ c
  show StableHlo.after hostOps0_1 (W1 m ρ c) (Proc.devRef .tc main_v1) = _
  generalize W1 m ρ c = V1 at e1 ⊢
  after_results_simp
  exact e1

set_option maxHeartbeats 16000000 in
theorem w2_v3 : W2 (F := Ideal) m ρ c (Proc.devRef .tc main_v3) = val_main_v3 (F := Ideal) a1 := by
  have e3 := w1_v3 m ρ c
  show StableHlo.after hostOps0_1 (W1 m ρ c) (Proc.devRef .tc main_v3) = _
  generalize W1 m ρ c = V1 at e3 ⊢
  after_results_simp
  exact e3

set_option maxHeartbeats 16000000 in
theorem w2_arg0 : W2 (F := Ideal) m ρ c (Proc.devRef .tc main_arg0) = a0 := by
  show StableHlo.after hostOps0_1 (StableHlo.after hostOps0 (W0 m ρ c)) (Proc.devRef .tc main_arg0) = _
  after_results_simp <;> rfl

set_option maxHeartbeats 16000000 in
theorem w2_arg2 : W2 (F := Ideal) m ρ c (Proc.devRef .tc main_arg2) = a2 := by
  show StableHlo.after hostOps0_1 (StableHlo.after hostOps0 (W0 m ρ c)) (Proc.devRef .tc main_arg2) = _
  after_results_simp <;> rfl

set_option maxHeartbeats 16000000 in
theorem w2_arg3 : W2 (F := Ideal) m ρ c (Proc.devRef .tc main_arg3) = a3 := by
  show StableHlo.after hostOps0_1 (StableHlo.after hostOps0 (W0 m ρ c)) (Proc.devRef .tc main_arg3) = _
  after_results_simp <;> rfl

set_option maxHeartbeats 16000000 in
theorem w2_arg4 : W2 (F := Ideal) m ρ c (Proc.devRef .tc main_arg4) = a4 := by
  show StableHlo.after hostOps0_1 (StableHlo.after hostOps0 (W0 m ρ c)) (Proc.devRef .tc main_arg4) = _
  after_results_simp <;> rfl

set_option maxHeartbeats 16000000 in
theorem w2_arg5 : W2 (F := Ideal) m ρ c (Proc.devRef .tc main_arg5) = a5 := by
  show StableHlo.after hostOps0_1 (StableHlo.after hostOps0 (W0 m ρ c)) (Proc.devRef .tc main_arg5) = _
  after_results_simp <;> rfl

set_option maxHeartbeats 16000000 in
theorem w2_arg6 : W2 (F := Ideal) m ρ c (Proc.devRef .tc main_arg6) = a6 := by
  show StableHlo.after hostOps0_1 (StableHlo.after hostOps0 (W0 m ρ c)) (Proc.devRef .tc main_arg6) = _
  after_results_simp <;> rfl

set_option maxHeartbeats 16000000 in
theorem w2_arg7 : W2 (F := Ideal) m ρ c (Proc.devRef .tc main_arg7) = a7 := by
  show StableHlo.after hostOps0_1 (StableHlo.after hostOps0 (W0 m ρ c)) (Proc.devRef .tc main_arg7) = _
  after_results_simp <;> rfl

set_option maxHeartbeats 16000000 in
theorem w2_arg8 : W2 (F := Ideal) m ρ c (Proc.devRef .tc main_arg8) = a8 := by
  show StableHlo.after hostOps0_1 (StableHlo.after hostOps0 (W0 m ρ c)) (Proc.devRef .tc main_arg8) = _
  after_results_simp <;> rfl

set_option maxHeartbeats 16000000 in
theorem w2_arg9 : W2 (F := Ideal) m ρ c (Proc.devRef .tc main_arg9) = a9 := by
  show StableHlo.after hostOps0_1 (StableHlo.after hostOps0 (W0 m ρ c)) (Proc.devRef .tc main_arg9) = _
  after_results_simp <;> rfl

set_option maxHeartbeats 16000000 in
theorem w2_arg10 : W2 (F := Ideal) m ρ c (Proc.devRef .tc main_arg10) = a10 := by
  show StableHlo.after hostOps0_1 (StableHlo.after hostOps0 (W0 m ρ c)) (Proc.devRef .tc main_arg10) = _
  after_results_simp <;> rfl

set_option maxHeartbeats 16000000 in
theorem w2_arg11 : W2 (F := Ideal) m ρ c (Proc.devRef .tc main_arg11) = a11 := by
  show StableHlo.after hostOps0_1 (StableHlo.after hostOps0 (W0 m ρ c)) (Proc.devRef .tc main_arg11) = _
  after_results_simp <;> rfl

set_option maxHeartbeats 16000000 in
theorem w2_arg12 : W2 (F := Ideal) m ρ c (Proc.devRef .tc main_arg12) = a12 := by
  show StableHlo.after hostOps0_1 (StableHlo.after hostOps0 (W0 m ρ c)) (Proc.devRef .tc main_arg12) = _
  after_results_simp <;> rfl

set_option maxHeartbeats 16000000 in
theorem w2_arg13 : W2 (F := Ideal) m ρ c (Proc.devRef .tc main_arg13) = a13 := by
  show StableHlo.after hostOps0_1 (StableHlo.after hostOps0 (W0 m ρ c)) (Proc.devRef .tc main_arg13) = _
  after_results_simp <;> rfl

set_option maxHeartbeats 16000000 in
theorem w2_arg14 : W2 (F := Ideal) m ρ c (Proc.devRef .tc main_arg14) = a14 := by
  show StableHlo.after hostOps0_1 (StableHlo.after hostOps0 (W0 m ρ c)) (Proc.devRef .tc main_arg14) = _
  after_results_simp <;> rfl

set_option maxHeartbeats 16000000 in
theorem w2_arg15 : W2 (F := Ideal) m ρ c (Proc.devRef .tc main_arg15) = a15 := by
  show StableHlo.after hostOps0_1 (StableHlo.after hostOps0 (W0 m ρ c)) (Proc.devRef .tc main_arg15) = _
  after_results_simp <;> rfl

/-! ## After the first launch -/

/-- The first launch's output array: the reference's first-layer messages. The launch leaves the message array of the
    arrays it was entered with; those are the taken rows (the reference's gathered rows), the edge attributes, the
    weights and the bias as launched; and the reference's own messages are that message array. -/
theorem w3_v5 (hs : SrcInRange m c) :
    W3 (F := Ideal) m ρ c (Proc.devRef .tc main_v5) = val_main_v16 (F := Ideal) a0 a1 a2 a4 a5 := by
  have e4 : V2 (F := Ideal) m ρ c main_v4 = val_main_v10 (F := Ideal) a0 a1 := w2_v4 m ρ c hs
  have eA2 : V2 (F := Ideal) m ρ c main_arg2 = a2 := w2_arg2 m ρ c
  have eA4 : V2 (F := Ideal) m ρ c main_arg4 = a4 := w2_arg4 m ρ c
  have eA5 : V2 (F := Ideal) m ρ c main_arg5 = a5 := w2_arg5 m ρ c
  refine (W3_arr m ρ c 4).trans ((Cert.KernelIdeal.MsgKernel.region0_array (V2 m ρ) c).trans ?_)
  rw [e4, eA2, eA4, eA5]
  exact (Cert.ReferenceIdeal.MsgRef.v16_eq _ _ _ _ _).symm

/-- The source and destination indices are still there. -/
theorem w3_v1 : W3 (F := Ideal) m ρ c (Proc.devRef .tc main_v1) = val_main_v1 (F := Ideal) a1 :=
  (W3_of_ne m ρ c main_v1 (by decide)).trans (w2_v1 m ρ c)

theorem w3_v3 : W3 (F := Ideal) m ρ c (Proc.devRef .tc main_v3) = val_main_v3 (F := Ideal) a1 :=
  (W3_of_ne m ρ c main_v3 (by decide)).trans (w2_v3 m ρ c)

/-! The argument arrays a later stage reads are as launched. -/

theorem w3_arg0 : W3 (F := Ideal) m ρ c (Proc.devRef .tc main_arg0) = a0 :=
  (W3_of_ne m ρ c main_arg0 (by decide)).trans (w2_arg0 m ρ c)

theorem w3_arg2 : W3 (F := Ideal) m ρ c (Proc.devRef .tc main_arg2) = a2 :=
  (W3_arr m ρ c 1).trans ((((dat0 (V2 m ρ) c).arrAt_in 1 rfl _).trans (A_eq0 (V2 m ρ) c 1)).trans (w2_arg2 m ρ c))

theorem w3_arg3 : W3 (F := Ideal) m ρ c (Proc.devRef .tc main_arg3) = a3 :=
  (W3_of_ne m ρ c main_arg3 (by decide)).trans (w2_arg3 m ρ c)

theorem w3_arg6 : W3 (F := Ideal) m ρ c (Proc.devRef .tc main_arg6) = a6 :=
  (W3_of_ne m ρ c main_arg6 (by decide)).trans (w2_arg6 m ρ c)

theorem w3_arg7 : W3 (F := Ideal) m ρ c (Proc.devRef .tc main_arg7) = a7 :=
  (W3_of_ne m ρ c main_arg7 (by decide)).trans (w2_arg7 m ρ c)

theorem w3_arg8 : W3 (F := Ideal) m ρ c (Proc.devRef .tc main_arg8) = a8 :=
  (W3_of_ne m ρ c main_arg8 (by decide)).trans (w2_arg8 m ρ c)

theorem w3_arg9 : W3 (F := Ideal) m ρ c (Proc.devRef .tc main_arg9) = a9 :=
  (W3_of_ne m ρ c main_arg9 (by decide)).trans (w2_arg9 m ρ c)

theorem w3_arg10 : W3 (F := Ideal) m ρ c (Proc.devRef .tc main_arg10) = a10 :=
  (W3_of_ne m ρ c main_arg10 (by decide)).trans (w2_arg10 m ρ c)

theorem w3_arg11 : W3 (F := Ideal) m ρ c (Proc.devRef .tc main_arg11) = a11 :=
  (W3_of_ne m ρ c main_arg11 (by decide)).trans (w2_arg11 m ρ c)

theorem w3_arg12 : W3 (F := Ideal) m ρ c (Proc.devRef .tc main_arg12) = a12 :=
  (W3_of_ne m ρ c main_arg12 (by decide)).trans (w2_arg12 m ρ c)

theorem w3_arg13 : W3 (F := Ideal) m ρ c (Proc.devRef .tc main_arg13) = a13 :=
  (W3_of_ne m ρ c main_arg13 (by decide)).trans (w2_arg13 m ρ c)

theorem w3_arg14 : W3 (F := Ideal) m ρ c (Proc.devRef .tc main_arg14) = a14 :=
  (W3_of_ne m ρ c main_arg14 (by decide)).trans (w2_arg14 m ρ c)

theorem w3_arg15 : W3 (F := Ideal) m ρ c (Proc.devRef .tc main_arg15) = a15 :=
  (W3_of_ne m ρ c main_arg15 (by decide)).trans (w2_arg15 m ρ c)

end Cert.Stages

end
-- ==== Proof.Stages2.lean ====
/-
  THE SECOND LAYER'S INPUTS, STAGE BY STAGE. Between the two launches the kernel program scatter-adds the first-layer
  messages onto their destination nodes, counts each node's incoming edges, divides, adds x · Wr1, normalises over the
  nodes (mean, biased variance, rsqrt) and cuts at zero — operation for operation what the reference does — and then
  takes the source rows of that array in fill mode, which with every source index in range are the reference's gathered
  rows. The second launch leaves the reference's second-layer messages in its output array.
-/
import proofs.«421166_j4243427688733_1_alg».proof.Proof.Gen.KernelIdeal.Frame
import proofs.«421166_j4243427688733_1_alg».proof.Proof.Gen.ReferenceIdeal.Read
import proofs.«421166_j4243427688733_1_alg».proof.Proof.Reads
import proofs.«421166_j4243427688733_1_alg».proof.Proof.TakePre
import proofs.«421166_j4243427688733_1_alg».proof.Proof.MsgKernel
import proofs.«421166_j4243427688733_1_alg».proof.Proof.MsgRef
import proofs.«421166_j4243427688733_1_alg».proof.Proof.Stages1
import Idealize.ShloMosaic.Lib.StableHlo.Run

set_option maxRecDepth 16384

noncomputable section

namespace Cert.Stages

open Idealize.ShloMosaic Idealize.ShloMosaic.TcCoe Idealize.SL.Sem Idealize.ShloMosaic.StableHlo Idealize.ShloMosaic.ValueIdx
open Cert.KernelIdeal Cert.KernelIdeal.Gen Cert.KernelIdeal.Reads
open Cert.ReferenceIdeal.Read

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-! ## Between the launches -/

/-- A buffer that no operation of a stretch writes holds after the stretch what it held before. -/
local macro "unwritten " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### The first layer's aggregation and normalisation -/

set_option maxHeartbeats 64000000 in
/-- Each node's number of incoming edges: ones scatter-added at the destination indices. -/
theorem w4_v12 : W4 (F := Ideal) m ρ c (Proc.devRef .tc main_v12) = val_main_v23 (F := Ideal) a1 := by
  have e3 := w3_v3 m ρ c
  show StableHlo.after hostOps1 (W3 m ρ c) (Proc.devRef .tc main_v12) = _
  generalize W3 m ρ c = V3 at e3 ⊢
  after_results_simp
  rw [e3]
  unfold val_main_v23 val_main_v22 val_main_v21 val_main_cst_2 val_main_v20 val_main_cst_1
  rfl

set_option maxHeartbeats 64000000 in
/-- The mean of the incoming messages plus x · Wr1, normalised over the nodes, scaled and shifted: operation for operation
    the reference's. -/
theorem w4_v44 (hs : SrcInRange m c) :
    W4 (F := Ideal) m ρ c (Proc.devRef .tc main_v44) = val_main_v55 (F := Ideal) a0 a1 a2 a4 a5 a6 a7 a8 := by
  have e5 := w3_v5 m ρ c hs
  have e3 := w3_v3 m ρ c
  have eA0 := w3_arg0 m ρ c
  have eA6 := w3_arg6 m ρ c
  have eA7 := w3_arg7 m ρ c
  have eA8 := w3_arg8 m ρ c
  show StableHlo.after hostOps1 (W3 m ρ c) (Proc.devRef .tc main_v44) = _
  generalize W3 m ρ c = V3 at e5 e3 eA0 eA6 eA7 eA8 ⊢
  after_results_simp
  rw [e5, e3, eA0, eA6, eA7, eA8]
  unfold val_main_v55 val_main_v54 val_main_v53 val_main_v52 val_main_v51 val_main_v50 val_main_v49 val_main_v48 val_main_v47 val_main_cst_8 val_main_v46 val_main_v45 val_main_v44 val_main_v43 val_main_v42 val_main_v41 val_main_v40 val_main_v39 val_main_cst_7 val_main_v38 val_main_cst_6 val_main_v37 val_main_v36 val_main_v35 val_main_v34 val_main_v33 val_main_v32 val_main_cst_5 val_main_v31 val_main_cst_4 val_main_v30 val_main_v29 val_main_v28 val_main_v27 val_main_v26 val_main_v25 val_main_v24 val_main_cst_3 val_main_v23 val_main_v22 val_main_v21 val_main_cst_2 val_main_v20 val_main_cst_1 val_main_v19 val_main_v18 val_main_v17 val_main_cst
  rfl

set_option maxHeartbeats 16000000 in
/-- The cut at zero: the first layer's output. -/
theorem w5_v45 (hs : SrcInRange m c) :
    W5 (F := Ideal) m ρ c (Proc.devRef .tc main_v45) = val_main_v56 (F := Ideal) a0 a1 a2 a4 a5 a6 a7 a8 := by
  have e44 : (TRef.of (T := ⟨S50000x64, .f32⟩) main_v44).ofBuf (W4 (F := Ideal) m ρ c (Proc.devRef .tc main_v44))
      = val_main_v55 (F := Ideal) a0 a1 a2 a4 a5 a6 a7 a8 := (ofBuf_v44 _).trans (w4_v44 m ρ c hs)
  show StableHlo.after hostOps1_1 (W4 m ρ c) (Proc.devRef .tc main_v45) = _
  generalize W4 m ρ c = V4 at e44 ⊢
  after_results_simp
  simp only [cast_cancel]
  rw [e44, toBuf_v45]
  unfold val_main_v56 val_main_call1_v0 val_main_call1_cst
  rfl

/-! ### The second take -/

/-- The source indices are still there when the second take reads them. -/
theorem w5_v1 : W5 (F := Ideal) m ρ c (Proc.devRef .tc main_v1) = val_main_v1 (F := Ideal) a1 :=
  calc W5 (F := Ideal) m ρ c (Proc.devRef .tc main_v1)
    _ = W4 m ρ c (Proc.devRef .tc main_v1) := by unwritten hostOps1_1
    _ = W3 m ρ c (Proc.devRef .tc main_v1) := by unwritten hostOps1
    _ = val_main_v1 (F := Ideal) a1 := w3_v1 m ρ c

set_option maxHeartbeats 16000000 in
/-- The rows of the first layer's output taken at the source indices: with every index in range the fill never fires,
    and they are the reference's gathered rows. -/
theorem w6_v46 (hs : SrcInRange m c) :
    W6 (F := Ideal) m ρ c (Proc.devRef .tc main_v46) = val_main_v63 (F := Ideal) a0 a1 a2 a4 a5 a6 a7 a8 := by
  have e1 : (TRef.of (T := ⟨S800000, .i32⟩) main_v1).ofBuf (W5 (F := Ideal) m ρ c (Proc.devRef .tc main_v1)) = val_main_v1 (F := Ideal) a1 :=
    (ofBuf_v1 _).trans (w5_v1 m ρ c)
  have e45 : (TRef.of (T := ⟨S50000x64, .f32⟩) main_v45).ofBuf (W5 (F := Ideal) m ρ c (Proc.devRef .tc main_v45))
      = val_main_v56 (F := Ideal) a0 a1 a2 a4 a5 a6 a7 a8 := (ofBuf_v45 _).trans (w5_v45 m ρ c hs)
  have hidx : colK (val_main_v1 (F := Ideal) a1) = broadcastInDim ⟨2, ![800000, 1]⟩ ![0] bcast_S800000_S800000x1_0
        (select (cmpi .slt (val_main_v1 (F := Ideal) a1) (broadcastInDim ⟨1, ![800000]⟩ ![] bcast_S_S800000 (constantI ⟨0, ![]⟩ 32 0#32)))
                (addi (val_main_v1 (F := Ideal) a1) (broadcastInDim ⟨1, ![800000]⟩ ![] bcast_S_S800000 (constantI ⟨0, ![]⟩ 32 50000#32)))
                (val_main_v1 (F := Ideal) a1)) := rfl
  have key := Cert.TakePre.take_fill_eq (α := EReal) (val_main_v1 (F := Ideal) a1) hs bcast_S_S800000 bcast_S800000_S800000x1_0
    bcast_S_S800000x1 bcast_S1_S1x1_1 bcast_S1x1_S800000x1_0_1 reducesTo_S800000x1_S800000_d1 h_S_ bcast_S800000_S800000x64_0
    (colK (val_main_v1 (F := Ideal) a1)) hidx
  show StableHlo.after hostOps1_2 (W5 m ρ c) (Proc.devRef .tc main_v46) = _
  generalize W5 m ρ c = V5 at e1 e45 ⊢
  after_results_simp
  simp only [cast_cancel]
  rw [e1, e45, toBuf_v46]
  refine (key _ _).trans ?_
  unfold val_main_v63 val_main_v62 val_main_v61 val_main_v60 val_main_v59 val_main_c_10 val_main_v58 val_main_v57 val_main_c_9
  rfl

/-! ### What the second launch and the last stretch read besides, as the second launch finds it -/

/-- The first layer's output is still there. -/
theorem w6_v45 (hs : SrcInRange m c) :
    W6 (F := Ideal) m ρ c (Proc.devRef .tc main_v45) = val_main_v56 (F := Ideal) a0 a1 a2 a4 a5 a6 a7 a8 :=
  calc W6 (F := Ideal) m ρ c (Proc.devRef .tc main_v45)
    _ = W5 m ρ c (Proc.devRef .tc main_v45) := by unwritten hostOps1_2
    _ = val_main_v56 (F := Ideal) a0 a1 a2 a4 a5 a6 a7 a8 := w5_v45 m ρ c hs

/-- So are the edge counts … -/
theorem w6_v12 : W6 (F := Ideal) m ρ c (Proc.devRef .tc main_v12) = val_main_v23 (F := Ideal) a1 :=
  calc W6 (F := Ideal) m ρ c (Proc.devRef .tc main_v12)
    _ = W5 m ρ c (Proc.devRef .tc main_v12) := by unwritten hostOps1_2
    _ = W4 m ρ c (Proc.devRef .tc main_v12) := by unwritten hostOps1_1
    _ = val_main_v23 (F := Ideal) a1 := w4_v12 m ρ c

/-- … and the destination indices. -/
theorem w6_v3 : W6 (F := Ideal) m ρ c (Proc.devRef .tc main_v3) = val_main_v3 (F := Ideal) a1 :=
  calc W6 (F := Ideal) m ρ c (Proc.devRef .tc main_v3)
    _ = W5 m ρ c (Proc.devRef .tc main_v3) := by unwritten hostOps1_2
    _ = W4 m ρ c (Proc.devRef .tc main_v3) := by unwritten hostOps1_1
    _ = W3 m ρ c (Proc.devRef .tc main_v3) := by unwritten hostOps1
    _ = val_main_v3 (F := Ideal) a1 := w3_v3 m ρ c

/-! The argument arrays are as launched. -/

theorem w6_arg2 : W6 (F := Ideal) m ρ c (Proc.devRef .tc main_arg2) = a2 :=
  calc W6 (F := Ideal) m ρ c (Proc.devRef .tc main_arg2)
    _ = W5 m ρ c (Proc.devRef .tc main_arg2) := by unwritten hostOps1_2
    _ = W4 m ρ c (Proc.devRef .tc main_arg2) := by unwritten hostOps1_1
    _ = W3 m ρ c (Proc.devRef .tc main_arg2) := by unwritten hostOps1
    _ = a2 := w3_arg2 m ρ c

theorem w6_arg3 : W6 (F := Ideal) m ρ c (Proc.devRef .tc main_arg3) = a3 :=
  calc W6 (F := Ideal) m ρ c (Proc.devRef .tc main_arg3)
    _ = W5 m ρ c (Proc.devRef .tc main_arg3) := by unwritten hostOps1_2
    _ = W4 m ρ c (Proc.devRef .tc main_arg3) := by unwritten hostOps1_1
    _ = W3 m ρ c (Proc.devRef .tc main_arg3) := by unwritten hostOps1
    _ = a3 := w3_arg3 m ρ c

theorem w6_arg9 : W6 (F := Ideal) m ρ c (Proc.devRef .tc main_arg9) = a9 :=
  calc W6 (F := Ideal) m ρ c (Proc.devRef .tc main_arg9)
    _ = W5 m ρ c (Proc.devRef .tc main_arg9) := by unwritten hostOps1_2
    _ = W4 m ρ c (Proc.devRef .tc main_arg9) := by unwritten hostOps1_1
    _ = W3 m ρ c (Proc.devRef .tc main_arg9) := by unwritten hostOps1
    _ = a9 := w3_arg9 m ρ c

theorem w6_arg10 : W6 (F := Ideal) m ρ c (Proc.devRef .tc main_arg10) = a10 :=
  calc W6 (F := Ideal) m ρ c (Proc.devRef .tc main_arg10)
    _ = W5 m ρ c (Proc.devRef .tc main_arg10) := by unwritten hostOps1_2
    _ = W4 m ρ c (Proc.devRef .tc main_arg10) := by unwritten hostOps1_1
    _ = W3 m ρ c (Proc.devRef .tc main_arg10) := by unwritten hostOps1
    _ = a10 := w3_arg10 m ρ c

theorem w6_arg11 : W6 (F := Ideal) m ρ c (Proc.devRef .tc main_arg11) = a11 :=
  calc W6 (F := Ideal) m ρ c (Proc.devRef .tc main_arg11)
    _ = W5 m ρ c (Proc.devRef .tc main_arg11) := by unwritten hostOps1_2
    _ = W4 m ρ c (Proc.devRef .tc main_arg11) := by unwritten hostOps1_1
    _ = W3 m ρ c (Proc.devRef .tc main_arg11) := by unwritten hostOps1
    _ = a11 := w3_arg11 m ρ c

theorem w6_arg12 : W6 (F := Ideal) m ρ c (Proc.devRef .tc main_arg12) = a12 :=
  calc W6 (F := Ideal) m ρ c (Proc.devRef .tc main_arg12)
    _ = W5 m ρ c (Proc.devRef .tc main_arg12) := by unwritten hostOps1_2
    _ = W4 m ρ c (Proc.devRef .tc main_arg12) := by unwritten hostOps1_1
    _ = W3 m ρ c (Proc.devRef .tc main_arg12) := by unwritten hostOps1
    _ = a12 := w3_arg12 m ρ c

theorem w6_arg13 : W6 (F := Ideal) m ρ c (Proc.devRef .tc main_arg13) = a13 :=
  calc W6 (F := Ideal) m ρ c (Proc.devRef .tc main_arg13)
    _ = W5 m ρ c (Proc.devRef .tc main_arg13) := by unwritten hostOps1_2
    _ = W4 m ρ c (Proc.devRef .tc main_arg13) := by unwritten hostOps1_1
    _ = W3 m ρ c (Proc.devRef .tc main_arg13) := by unwritten hostOps1
    _ = a13 := w3_arg13 m ρ c

theorem w6_arg14 : W6 (F := Ideal) m ρ c (Proc.devRef .tc main_arg14) = a14 :=
  calc W6 (F := Ideal) m ρ c (Proc.devRef .tc main_arg14)
    _ = W5 m ρ c (Proc.devRef .tc main_arg14) := by unwritten hostOps1_2
    _ = W4 m ρ c (Proc.devRef .tc main_arg14) := by unwritten hostOps1_1
    _ = W3 m ρ c (Proc.devRef .tc main_arg14) := by unwritten hostOps1
    _ = a14 := w3_arg14 m ρ c

theorem w6_arg15 : W6 (F := Ideal) m ρ c (Proc.devRef .tc main_arg15) = a15 :=
  calc W6 (F := Ideal) m ρ c (Proc.devRef .tc main_arg15)
    _ = W5 m ρ c (Proc.devRef .tc main_arg15) := by unwritten hostOps1_2
    _ = W4 m ρ c (Proc.devRef .tc main_arg15) := by unwritten hostOps1_1
    _ = W3 m ρ c (Proc.devRef .tc main_arg15) := by unwritten hostOps1
    _ = a15 := w3_arg15 m ρ c

/-! ## At the second launch's exit: what the last stretch reads -/

/-- The second launch's output array: the reference's second-layer messages. -/
theorem w7_v47 (hs : SrcInRange m c) :
    W7 (F := Ideal) m ρ c (Proc.devRef .tc main_v47) = val_main_v69 (F := Ideal) a0 a1 a2 a4 a5 a6 a7 a8 a9 a10 := by
  have h := (W7_arr (F := Ideal) m ρ c 4).trans (Cert.KernelIdeal.MsgKernel.region1_array (V6 (F := Ideal) m ρ) c)
  refine h.trans ?_
  rw [Cert.ReferenceIdeal.MsgRef.v69_eq]
  show Cert.EdgeMsg.msg (W6 (F := Ideal) m ρ c (Proc.devRef .tc main_v46)) (W6 (F := Ideal) m ρ c (Proc.devRef .tc main_arg2))
      (W6 (F := Ideal) m ρ c (Proc.devRef .tc main_arg9)) (W6 (F := Ideal) m ρ c (Proc.devRef .tc main_arg10)) = _
  rw [w6_v46 m ρ c hs, w6_arg2 m ρ c, w6_arg9 m ρ c, w6_arg10 m ρ c]

/-- The first layer's output (after normalisation and the cut at zero). -/
theorem w7_v45 (hs : SrcInRange m c) :
    W7 (F := Ideal) m ρ c (Proc.devRef .tc main_v45) = val_main_v56 (F := Ideal) a0 a1 a2 a4 a5 a6 a7 a8 :=
  (W7_of_ne m ρ c main_v45 (by decide)).trans (w6_v45 m ρ c hs)

/-- Each node's number of incoming edges. -/
theorem w7_v12 : W7 (F := Ideal) m ρ c (Proc.devRef .tc main_v12) = val_main_v23 (F := Ideal) a1 :=
  (W7_of_ne m ρ c main_v12 (by decide)).trans (w6_v12 m ρ c)

/-- The destination indices. -/
theorem w7_v3 : W7 (F := Ideal) m ρ c (Proc.devRef .tc main_v3) = val_main_v3 (F := Ideal) a1 :=
  (W7_of_ne m ρ c main_v3 (by decide)).trans (w6_v3 m ρ c)

theorem w7_arg3 : W7 (F := Ideal) m ρ c (Proc.devRef .tc main_arg3) = a3 :=
  (W7_of_ne m ρ c main_arg3 (by decide)).trans (w6_arg3 m ρ c)

theorem w7_arg11 : W7 (F := Ideal) m ρ c (Proc.devRef .tc main_arg11) = a11 :=
  (W7_of_ne m ρ c main_arg11 (by decide)).trans (w6_arg11 m ρ c)

theorem w7_arg12 : W7 (F := Ideal) m ρ c (Proc.devRef .tc main_arg12) = a12 :=
  (W7_of_ne m ρ c main_arg12 (by decide)).trans (w6_arg12 m ρ c)

theorem w7_arg13 : W7 (F := Ideal) m ρ c (Proc.devRef .tc main_arg13) = a13 :=
  (W7_of_ne m ρ c main_arg13 (by decide)).trans (w6_arg13 m ρ c)

theorem w7_arg14 : W7 (F := Ideal) m ρ c (Proc.devRef .tc main_arg14) = a14 :=
  (W7_of_ne m ρ c main_arg14 (by decide)).trans (w6_arg14 m ρ c)

theorem w7_arg15 : W7 (F := Ideal) m ρ c (Proc.devRef .tc main_arg15) = a15 :=
  (W7_of_ne m ρ c main_arg15 (by decide)).trans (w6_arg15 m ρ c)

end Cert.Stages

end
-- ==== Proof.Stages3.lean ====
/-
  THE RESULT. After the second launch the kernel program aggregates the second-layer messages as it did the first (reusing
  the incoming-edge counts it computed once, where the reference counts again: the same scatter-add of ones), adds
  h · Wr2, normalises, cuts at zero, sums the nodes of each graph, divides by the graph's size, and applies the output
  layer — operation for operation the reference's last stages. So the result array is the reference's.
-/
import proofs.«421166_j4243427688733_1_alg».proof.Proof.Gen.KernelIdeal.Frame
import proofs.«421166_j4243427688733_1_alg».proof.Proof.Gen.ReferenceIdeal.Read
import proofs.«421166_j4243427688733_1_alg».proof.Proof.Reads
import proofs.«421166_j4243427688733_1_alg».proof.Proof.Stages1
import proofs.«421166_j4243427688733_1_alg».proof.Proof.Stages2
import Idealize.ShloMosaic.Lib.StableHlo.Run

set_option maxRecDepth 16384

noncomputable section

namespace Cert.Stages

open Idealize.ShloMosaic Idealize.ShloMosaic.TcCoe Idealize.SL.Sem Idealize.ShloMosaic.StableHlo Idealize.ShloMosaic.ValueIdx
open Cert.KernelIdeal Cert.KernelIdeal.Gen Cert.KernelIdeal.Reads
open Cert.ReferenceIdeal.Read

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-! ## The second layer's aggregation and normalisation -/

set_option maxHeartbeats 64000000 in
/-- The normalised second-layer array before its cut at zero: the scatter-add of the second-layer messages at the
    destinations, divided by the incoming-edge counts (at least one), plus h · Wr2, centred and scaled over the nodes.
    The counts are the ones computed before the first layer; the reference counts again by the same scatter-add of
    ones over the same destinations. -/
theorem w8_v82 (hs : SrcInRange m c) :
    W8 (F := Ideal) m ρ c (Proc.devRef .tc main_v82) = val_main_v108 (F := Ideal) a0 a1 a2 a4 a5 a6 a7 a8 a9 a10 a11 a12 a13 := by
  have e47 := w7_v47 m ρ c hs
  have e45 := w7_v45 m ρ c hs
  have e12 := w7_v12 m ρ c
  have e3 := w7_v3 m ρ c
  have eA11 := w7_arg11 m ρ c
  have eA12 := w7_arg12 m ρ c
  have eA13 := w7_arg13 m ρ c
  show StableHlo.after hostOps2 (W7 m ρ c) (Proc.devRef .tc main_v82) = _
  generalize W7 m ρ c = V at e47 e45 e12 e3 eA11 eA12 eA13 ⊢
  after_results_simp
  rw [e47, e45, e12, e3, eA11, eA12, eA13]
  unfold val_main_v108 val_main_v107 val_main_v106 val_main_v105 val_main_v104 val_main_v103 val_main_v102 val_main_v101 val_main_v100 val_main_cst_19 val_main_v99 val_main_v98 val_main_v97 val_main_v96 val_main_v95 val_main_v94 val_main_v93 val_main_v92 val_main_cst_18 val_main_v91 val_main_cst_17 val_main_v90 val_main_v89 val_main_v88 val_main_v87 val_main_v86 val_main_v85 val_main_cst_16 val_main_v84 val_main_cst_15 val_main_v83 val_main_v82 val_main_v81 val_main_v80 val_main_v79 val_main_v78 val_main_v77 val_main_cst_14 val_main_v76 val_main_v75 val_main_v74 val_main_cst_13 val_main_v73 val_main_cst_12 val_main_v72 val_main_v71 val_main_v70 val_main_cst_11 val_main_v23 val_main_v22 val_main_v21 val_main_cst_2 val_main_v20 val_main_cst_1
  rfl

set_option maxHeartbeats 16000000 in
/-- Its cut at zero. -/
theorem w9_v83 (hs : SrcInRange m c) :
    W9 (F := Ideal) m ρ c (Proc.devRef .tc main_v83) = val_main_v109 (F := Ideal) a0 a1 a2 a4 a5 a6 a7 a8 a9 a10 a11 a12 a13 := by
  have e82 : (TRef.of (T := ⟨S50000x64, .f32⟩) main_v82).ofBuf (W8 (F := Ideal) m ρ c (Proc.devRef .tc main_v82))
      = val_main_v108 (F := Ideal) a0 a1 a2 a4 a5 a6 a7 a8 a9 a10 a11 a12 a13 := (ofBuf_v82 _).trans (w8_v82 m ρ c hs)
  show StableHlo.after hostOps2_1 (W8 m ρ c) (Proc.devRef .tc main_v83) = _
  generalize W8 m ρ c = V at e82 ⊢
  after_results_simp
  simp only [cast_cancel]
  rw [e82, toBuf_v83]
  unfold val_main_v109 val_main_call3_v0 val_main_call3_cst
  rfl

/-! ## The arguments the pooling tail reads are untouched by the two stretches before it -/

set_option maxHeartbeats 16000000 in
theorem w9_arg3 : W9 (F := Ideal) m ρ c (Proc.devRef .tc main_arg3) = a3 := by
  have e := w7_arg3 m ρ c
  show StableHlo.after hostOps2_1 (StableHlo.after hostOps2 (W7 m ρ c)) (Proc.devRef .tc main_arg3) = _
  generalize W7 m ρ c = V at e ⊢
  after_results_simp
  exact e

set_option maxHeartbeats 16000000 in
theorem w9_arg14 : W9 (F := Ideal) m ρ c (Proc.devRef .tc main_arg14) = a14 := by
  have e := w7_arg14 m ρ c
  show StableHlo.after hostOps2_1 (StableHlo.after hostOps2 (W7 m ρ c)) (Proc.devRef .tc main_arg14) = _
  generalize W7 m ρ c = V at e ⊢
  after_results_simp
  exact e

set_option maxHeartbeats 16000000 in
theorem w9_arg15 : W9 (F := Ideal) m ρ c (Proc.devRef .tc main_arg15) = a15 := by
  have e := w7_arg15 m ρ c
  show StableHlo.after hostOps2_1 (StableHlo.after hostOps2 (W7 m ρ c)) (Proc.devRef .tc main_arg15) = _
  generalize W7 m ρ c = V at e ⊢
  after_results_simp
  exact e

/-! ## The pooling tail -/

set_option maxHeartbeats 64000000 in
/-- The kernel program's result array is the reference's result, as a function of the argument arrays. -/
theorem w10_v100 (hs : SrcInRange m c) :
    W10 (F := Ideal) m ρ c (Proc.devRef .tc main_v100)
      = val_main_v126 (F := Ideal) a0 a1 a2 a3 a4 a5 a6 a7 a8 a9 a10 a11 a12 a13 a14 a15 := by
  have e83 := w9_v83 m ρ c hs
  have eA3 := w9_arg3 m ρ c
  have eA14 := w9_arg14 m ρ c
  have eA15 := w9_arg15 m ρ c
  show StableHlo.after hostOps2_2 (W9 m ρ c) (Proc.devRef .tc main_v100) = _
  generalize W9 m ρ c = V at e83 eA3 eA14 eA15 ⊢
  after_results_simp
  rw [e83, eA3, eA14, eA15]
  unfold val_main_v126 val_main_v125 val_main_v124 val_main_v123 val_main_v122 val_main_v121 val_main_v120 val_main_v119 val_main_v118 val_main_v117 val_main_cst_23 val_main_v116 val_main_v115 val_main_v114 val_main_cst_22 val_main_v113 val_main_cst_21 val_main_v112 val_main_v111 val_main_v110 val_main_cst_20
  rfl

end Cert.Stages

end
-- ==== Proof.lean ====
/-
  THE CERTIFICATE OF THE TWO-LAYER EDGE-MESSAGE NETWORK.
  Both programs compute the same function of the sixteen argument arrays. Twice over: for every edge the message
  relu((x_src ++ a) · W + b) of the source node's row x_src joined with the edge's attributes a; the mean of the messages
  arriving at each node (a scatter-add of the messages divided by a scatter-add of ones); the node's own root term
  added; the batch normalisation and the cut at zero. Then the mean over the nodes of each graph and the output layer.
  The reference does all of it with whole-array operations. The kernel program computes the messages of each layer in a
  launch, block of edges by block of edges, and everything else with the reference's own whole-array operations; its
  take of the source rows is in fill mode, and fills nothing, because the added precondition keeps every source index
  inside the 50000-row table. So the kernel program's result array, as a function of the arguments, is the reference's
  result (the stage lemmas), both programs run and leave their arguments as launched (the frames and the two runs), and
  the idealization rewrote no operation.
-/
import proofs.«421166_j4243427688733_1_alg».proof.Defs
import proofs.«421166_j4243427688733_1_alg».proof.Proof.Gen.Pre_finite_inputs
import proofs.«421166_j4243427688733_1_alg».proof.Proof.Gen.Kernel.Frame
import proofs.«421166_j4243427688733_1_alg».proof.Proof.Gen.KernelIdeal.Frame
import proofs.«421166_j4243427688733_1_alg».proof.Proof.Gen.ReferenceIdeal.Run
import proofs.«421166_j4243427688733_1_alg».proof.Proof.Gen.ReferenceIdeal.Read
import proofs.«421166_j4243427688733_1_alg».proof.Proof.KernelRun
import proofs.«421166_j4243427688733_1_alg».proof.Proof.Stages3
import proofs.«421166_j4243427688733_1_alg».proof.Proof.TakePre

noncomputable section

namespace Cert.Proof

open Idealize.ShloMosaic Idealize.ShloMosaic.TcCoe Idealize.SL.Sem

/-! ## The precondition, read -/

/-- The precondition is all ones on every device; its last conjunct says that every source index (row 0 of the edge
    list, which is the reference's first reshaped slice) lies in [0, 50000). -/
theorem src_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.Stages.SrcInRange m c := by
  intro e
  have h := Cert.TakePre.src_in_range _ _ _ _ _ _ _ _ _ _ _ _ _ _ _ _ (hpre c) e
  unfold Cert.ReferenceIdeal.Read.val_main_v1 Cert.ReferenceIdeal.Read.val_main_v0
  exact h

/-! ## The claims -/

/-- The kernel program runs and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- So does the reference: the frame half of its run. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from arguments that agree, the kernel program ends with its result array at the last
    boundary's contents and the reference with its result at the composed term of its operations; under the precondition
    the first is the second as a function of the arguments (the stage lemmas), so the two results are equal. -/
theorem algebraic : Cert.algebraic_KernelIdeal_ReferenceIdeal := by
  intro m g m' g' hpre hagree
  refine ⟨fun c => Cert.KernelIdeal.Gen.W10 (F := Ideal) m g c (Proc.devRef .tc Cert.KernelIdeal.main_v100),
    Cert.KernelIdeal.RunMain.run_main (F := Ideal) m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11, h12, h13, h14, h15⟩ := hagree c
  rw [Cert.ReferenceIdeal.Read.val_main_v126_eq m' c, h0, h1, h2, h3, h4, h5, h6, h7, h8, h9, h10, h11, h12, h13, h14, h15]
  exact (Cert.Stages.w10_v100 m g c (src_of_pre m hpre c)).symm

/-- The idealization rewrote no operation, so what it preserves is nothing to prove. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
